-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x256x256 : Shape := ⟨4, ![16, 4, 256, 256]⟩
abbrev S128x8 : Shape := ⟨2, ![128, 8]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S16x4x256x256 : S_.BroadcastsInDim S16x4x256x256 (![] : Fin 0 → Fin S16x4x256x256.rank)
  reducesTo_S16x4x256x256_S_d0_1_2_3 : S16x4x256x256.ReducesTo [0, 1, 2, 3] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2x128 .f32) (main_arg5 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S16x4x256x256 .f32) (main_arg1 : FVec F S16x4x256x256 .f32) (main_arg2 : FVec F S128x8 .f32) (main_arg3 : FVec F S128 .f32) (main_arg4 : FVec F S2x128 .f32) (main_arg5 : FVec F S2 .f32) : IVec S_ 1 :=
  let main_v0 : FVec F S16x4x256x256 .f32 := Host.absf main_arg0
  let main_cst : FVec F S_ .f32 := constant S_ .f32 0x7F800000#32
  let main_v1 : FVec F S16x4x256x256 .f32 := broadcastInDim S16x4x256x256 ![] bcast_S_S16x4x256x256 main_cst
  let main_v2 : IVec S16x4x256x256 1 := cmpf .olt main_v0 main_v1
  let main_c : IVec S_ 1 := constantI S_ 1 1#1
  let main_v3 : IVec S_ 1 := (fun x v => Host.reduce IntOp.andi x v reducesTo_S16x4x256x256_S_d0_1_2_3 h_S_) main_v2 main_c
  let main_v4 : FVec F S16x4x256x256 .f32 := Host.absf main_arg1
  let main_cst_0 : FVec F S_ .f32 := constant S_ .f32 0x7F800000#32
  let main_v5 : FVec F S16x4x256x256 .f32 := broadcastInDim S16x4x256x256 ![] bcast_S_S16x4x256x256 main_cst_0
  let main_v6 : IVec S16x4x256x256 1 := cmpf .olt main_v4 main_v5
  let main_c_1 : IVec S_ 1 := constantI S_ 1 1#1
  let main_v7 : IVec S_ 1 := (fun x v => Host.reduce IntOp.andi x v reducesTo_S16x4x256x256_S_d0_1_2_3 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x4x256x256 : Shape := ⟨4, ![16, 4, 256, 256]⟩
abbrev S128x8 : Shape := ⟨2, ![128, 8]⟩
abbrev S128 : Shape := ⟨1, ![128]⟩
abbrev S2x128 : Shape := ⟨2, ![2, 128]⟩
abbrev S2 : Shape := ⟨1, ![2]⟩
abbrev S4x4x256x256 : Shape := ⟨4, ![4, 4, 256, 256]⟩
abbrev S4x4x256 : Shape := ⟨3, ![4, 4, 256]⟩
abbrev S4x4 : Shape := ⟨2, ![4, 4]⟩
abbrev S4x8 : Shape := ⟨2, ![4, 8]⟩
abbrev S4x128 : Shape := ⟨2, ![4, 128]⟩
abbrev S1x128 : Shape := ⟨2, ![1, 128]⟩
abbrev S1 : Shape := ⟨1, ![1]⟩
abbrev S4 : Shape := ⟨1, ![4]⟩
abbrev S4x1 : Shape := ⟨2, ![4, 1]⟩
abbrev S1x1 : Shape := ⟨2, ![1, 1]⟩
abbrev S4x1x1x1 : Shape := ⟨4, ![4, 1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S16x4x256x256, .f32⟩
  | .hbm, ⟨1, _⟩ => ⟨S16x4x256x256, .f32⟩
  | .hbm, ⟨2, _⟩ => ⟨S128x8, .f32⟩
  | .hbm, ⟨3, _⟩ => ⟨S128, .f32⟩
  | .hbm, ⟨4, _⟩ => ⟨S2x128, .f32⟩
  | .hbm, ⟨5, _⟩ => ⟨S2, .f32⟩
  | .hbm, ⟨6, _⟩ => ⟨S16x4x256x256, .f32⟩
  | .local _ .vmem, ⟨0, _⟩ => ⟨S4x4x256x256, .f32⟩
  | .local _ .vmem, ⟨1, _⟩ => ⟨S4x4x256x256, .f32⟩
  | .local _ .vmem, ⟨2, _⟩ => ⟨S4x4x256x256, .f32⟩
  | .local _ .vmem, ⟨3, _⟩ => ⟨S4x4x256x256, .f32⟩
  | .local _ .vmem, ⟨4, _⟩ => ⟨S128x8, .f32⟩
  | .local _ .vmem, ⟨5, _⟩ => ⟨S128, .f32⟩
  | .local _ .vmem, ⟨6, _⟩ => ⟨S2x128, .f32⟩
  | .local _ .vmem, ⟨7, _⟩ => ⟨S2, .f32⟩
  | .local _ .vmem, ⟨8, _⟩ => ⟨S4x4x256x256, .f32⟩
  | .local _ .vmem, ⟨9, _⟩ => ⟨S4x4x256x256, .f32⟩
  | _, _ => ⟨S16x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4x4x256x256_S4x4x256x256_0_0_0_0 : ∀ a, (![0, 0, 0, 0] : Fin 4 → Nat) a + S4x4x256x256.size a ≤ S4x4x256x256.size a
  h_S4x4x256x256 : 0 < S4x4x256x256.numel
  reduces_S4x4x256x256_S4x4x256 : S4x4x256x256.Reduces [3] S4x4x256
  reduces_S4x4x256_S4x4 : S4x4x256.Reduces [2] S4x4
  concatenates_S4x4_S4x4_S4x8_d1 : Shape.Concatenates [S4x4, S4x4] S4x8 1
  inb_S128x8_S128x8_0_0 : ∀ a, (![0, 0] : Fin 2 → Nat) a + S128x8.size a ≤ S128x8.size a
  h_S128x8 : 0 < S128x8.numel
  inb_S128_S128_0 : ∀ a, (![0] : Fin 1 → Nat) a + S128.size a ≤ S128.size a
  h_S128 : 0 < S128.numel
  shapeCasts_S128_S1x128 : S128.ShapeCasts S1x128
  broadcasts_S1x128_S4x128 : S1x128.Broadcasts S4x128
  inb_S2x128_S1x128_0_0 : ∀ a, (![0, 0] : Fin 2 → Nat) a + S1x128.size a ≤ S2x128.size a
  h_S1x128 : 0 < S1x128.numel
  inb_S2x128_S1x128_1_0 : ∀ a, (![1, 0] : Fin 2 → Nat) a + S1x128.size a ≤ S2x128.size a
  inb_S2_S2_0 : ∀ a, (![0] : Fin 1 → Nat) a + S2.size a ≤ S2.size a
  h_S2 : 0 < S2.numel
  slices_S2_o0_S1 : S2.Slices ![0] S1
  slices_S2_o1_S1 : S2.Slices ![1] S1
  reduces_S4x128_S4 : S4x128.Reduces [1] S4
  shapeCasts_S4_S4x1 : S4.ShapeCasts S4x1
  shapeCasts_S1_S1x1 : S1.ShapeCasts S1x1
  broadcasts_S1x1_S4x1 : S1x1.Broadcasts S4x1
  shapeCasts_S4x1_S4x1x1x1 : S4x1.ShapeCasts S4x1x1x1
  broadcasts_S4x1x1x1_S4x4x256x256 : S4x1x1x1.Broadcasts S4x4x256x256
  dot_S4x8_S128x8_S4x128_1_1_0_0_n_n_wf : DotDims.WF S4x8 S128x8 S4x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4x256x256.size a ≤ S16x4x256x256.size a
  hwx0_0 : ∀ i : grid0.Coords, EltTy.bits .f32 = 32 ∨ (Rect.block (s := S16x4x256x256) S4x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x256x256.size a ≤ S16x4x256x256.size a
  hwx0_1 : ∀ i : grid0.Coords, EltTy.bits .f32 = 32 ∨ (Rect.block (s := S16x4x256x256) S4x4x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x4x256x256.size a ≤ S16x4x256x256.size a
  hwx0_6 : ∀ i : grid0.Coords, EltTy.bits .f32 = 32 ∨ (Rect.block (s := S16x4x256x256) S4x4x256x256.size (cc0_transform_6 i) (hinb0_6 i)).WholeWords (EltTy.packing .f32)

variable [Facts₀]

def dot_S4x8_S128x8_S4x128_1_1_0_0_n_n : DotDims S4x8 S128x8 S4x128 where
  lhsContracting := [1]
  rhsContracting := [1]
  lhsNonContracting := [0]
  rhsNonContracting := [0]
  lhsBatch := []
  rhsBatch := []
  wf := dot_S4x8_S128x8_S4x128_1_1_0_0_n_n_wf

abbrev win0_0 : Pipeline.Window sig grid0 :=
  Pipeline.Window.ofSpec (Memref.whole main_arg0) S4x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4x4x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4x256x256 : Shape := ⟨4, ![16, 4, 256, 256]⟩
abbrev S128x8 : Shape := ⟨2, ![128, 8]⟩
abbrev S128 : Shape := ⟨1, ![128]⟩
abbrev S2x128 : Shape := ⟨2, ![2, 128]⟩
abbrev S2 : Shape := ⟨1, ![2]⟩
abbrev S16x8x32768 : Shape := ⟨3, ![16, 8, 32768]⟩
abbrev S8x128 : Shape := ⟨2, ![8, 128]⟩
abbrev S4x128 : Shape := ⟨2, ![4, 128]⟩
abbrev S4x2x128 : Shape := ⟨3, ![4, 2, 128]⟩
abbrev S1x128 : Shape := ⟨2, ![1, 128]⟩
abbrev S128x2 : Shape := ⟨2, ![128, 2]⟩
abbrev S1x2 : Shape := ⟨2, ![1, 2]⟩
abbrev S1x8x32768 : Shape := ⟨3, ![1, 8, 32768]⟩
abbrev S1x8 : Shape := ⟨2, ![1, 8]⟩
abbrev S1 : Shape := ⟨1, ![1]⟩
abbrev S1x1 : Shape := ⟨2, ![1, 1]⟩
abbrev S1x1x1 : Shape := ⟨3, ![1, 1, 1]⟩

abbrev nBuf : Space → Nat
  | .hbm => 20
  | .vmem => 11
  | .smem => 0
  | _ => 0

abbrev bufTy : (tb : Table) → Fin (tcTables nBuf tb) → BufTy
  | .hbm, ⟨0, _⟩ => ⟨S16x4x256x256, .f32⟩
  | .hbm, ⟨1, _⟩ => ⟨S16x4x256x256, .f32⟩
  | .hbm, ⟨2, _⟩ => ⟨S128x8, .f32⟩
  | .hbm, ⟨3, _⟩ => ⟨S128, .f32⟩
  | .hbm, ⟨4, _⟩ => ⟨S2x128, .f32⟩
  | .hbm, ⟨5, _⟩ => ⟨S2, .f32⟩
  | .hbm, ⟨6, _⟩ => ⟨S16x8x32768, .f32⟩
  | .hbm, ⟨7, _⟩ => ⟨S16x8x32768, .f32⟩
  | .hbm, ⟨8, _⟩ => ⟨S8x128, .f32⟩
  | .hbm, ⟨9, _⟩ => ⟨S4x128, .f32⟩
  | .hbm, ⟨10, _⟩ => ⟨S4x2x128, .f32⟩
  | .hbm, ⟨11, _⟩ => ⟨S8x128, .f32⟩
  | .hbm, ⟨12, _⟩ => ⟨S4x128, .f32⟩
  | .hbm, ⟨13, _⟩ => ⟨S4x2x128, .f32⟩
  | .hbm, ⟨14, _⟩ => ⟨S8x128, .f32⟩
  | .hbm, ⟨15, _⟩ => ⟨S1x128, .f32⟩
  | .hbm, ⟨16, _⟩ => ⟨S128x2, .f32⟩
  | .hbm, ⟨17, _⟩ => ⟨S1x2, .f32⟩
  | .hbm, ⟨18, _⟩ => ⟨S16x8x32768, .f32⟩
  | .hbm, ⟨19, _⟩ => ⟨S16x4x256x256, .f32⟩
  | .local _ .vmem, ⟨0, _⟩ => ⟨S1x8x32768, .f32⟩
  | .local _ .vmem, ⟨1, _⟩ => ⟨S1x8x32768, .f32⟩
  | .local _ .vmem, ⟨2, _⟩ => ⟨S1x8x32768, .f32⟩
  | .local _ .vmem, ⟨3, _⟩ => ⟨S1x8x32768, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | .local _ .vmem, ⟨7, _⟩ => ⟨S128x2, .f32⟩
  | .local _ .vmem, ⟨8, _⟩ => ⟨S1x2, .f32⟩
  | .local _ .vmem, ⟨9, _⟩ => ⟨S1x8x32768, .f32⟩
  | .local _ .vmem, ⟨10, _⟩ => ⟨S1x8x32768, .f32⟩
  | _, _ => ⟨S16x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4x256x256_S16x8x32768 : S16x4x256x256.ShapeCasts S16x8x32768
  transposes_S128x8_S8x128_1_0 : S128x8.Transposes [1, 0] S8x128
  slices_S8x128_S4x128_0_0 : S8x128.Slices ![0, 0] S4x128
  bcast_S4x128_S4x2x128_0_2 : S4x128.BroadcastsInDim S4x2x128 (![0, 2] : Fin 2 → Fin S4x2x128.rank)
  shapeCasts_S4x2x128_S8x128 : S4x2x128.ShapeCasts S8x128
  slices_S8x128_S4x128_4_0 : S8x128.Slices ![4, 0] S4x128
  shapeCasts_S128_S1x128 : S128.ShapeCasts S1x128
  transposes_S2x128_S128x2_1_0 : S2x128.Transposes [1, 0] S128x2
  shapeCasts_S2_S1x2 : S2.ShapeCasts S1x2
  inb_S1x8x32768_S1x8x32768_0_0_0 : ∀ a, (![0, 0, 0] : Fin 3 → Nat) a + S1x8x32768.size a ≤ S1x8x32768.size a
  h_S1x8x32768 : 0 < S1x8x32768.numel
  shapeCasts_S1x8x32768_S1x8x32768 : S1x8x32768.ShapeCasts S1x8x32768
  reduces_S1x8x32768_S1x8 : S1x8x32768.Reduces [2] S1x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S1x2_S1 : S1x2.Reduces [1] S1
  shapeCasts_S1_S1x1 : S1.ShapeCasts S1x1
  broadcasts_S1x1_S1x2 : S1x1.Broadcasts S1x2
  slices_S1x2_o0_0_S1x1 : S1x2.Slices ![0, 0] S1x1
  slices_S1x2_o0_1_S1x1 : S1x2.Slices ![0, 1] S1x1
  shapeCasts_S1x1_S1x1x1 : S1x1.ShapeCasts S1x1x1
  broadcasts_S1x1x1_S1x8x32768 : S1x1x1.Broadcasts S1x8x32768
  shapeCasts_S16x8x32768_S16x4x256x256 : S16x8x32768.ShapeCasts S16x4x256x256
  dot_S1x8_S8x128_S1x128_1_0_0_1_n_n_wf : DotDims.WF S1x8 S8x128 S1x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32768.size a ≤ S16x8x32768.size a
  hwx0_0 : ∀ i : grid0.Coords, EltTy.bits .f32 = 32 ∨ (Rect.block (s := S16x8x32768) S1x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x32768.size a ≤ S16x8x32768.size a
  hwx0_1 : ∀ i : grid0.Coords, EltTy.bits .f32 = 32 ∨ (Rect.block (s := S16x8x32768) S1x8x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x32768.size a ≤ S16x8x32768.size a
  hwx0_7 : ∀ i : grid0.Coords, EltTy.bits .f32 = 32 ∨ (Rect.block (s := S16x8x32768) S1x8x32768.size (cc0_transform_7 i) (hinb0_7 i)).WholeWords (EltTy.packing .f32)

variable [Facts₀]

def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v0) S1x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x8x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.GatedBlend.lean ====
/-
  The function both programs compute, written over the extended reals, index by index.

  Per sample `n` both programs pool each stream's channels over the 256 × 256 image, pass the eight pooled
  numbers through a 128-unit hidden layer (scaled by 2⁻¹⁶, the reciprocal of the image's area, shifted by a
  bias and clipped at zero), turn the hidden vector into a weight for the first stream, and blend the two
  streams with it. They differ in three places, each spelt out below:

  * the pooling: one program sums a channel's 256 rows of 256 entries (`chanSum`); the other folds every
    channel into two half-channels of 32768 contiguous entries and sums those (`halfSum`), meeting each
    first-layer weight twice;
  * the weight: one program takes the logistic function of the DIFFERENCE of the two output logits
    (`gateOf`); the other takes the two-way softmax with the maximum subtracted (`shareOf`);
  * the blend: `b + g · (a − b)` against `a · p₀ + b · p₁`.
-/
import Idealize.ShloMosaic.PureOps.Ideal
import Idealize.ShloMosaic.Lib.ValueIdx

noncomputable section

open scoped BigOperators

namespace Cert.GatedBlend

open Idealize.ShloMosaic Idealize.ShloMosaic.ValueIdx

/-- Sixteen samples of four channels of 256 × 256 entries. -/
abbrev Img : Shape := ⟨4, ![16, 4, 256, 256]⟩
/-- The first layer's weights: 128 hidden units by 8 pooled numbers (four per stream). -/
abbrev W1 : Shape := ⟨2, ![128, 8]⟩
/-- The first layer's biases. -/
abbrev B1 : Shape := ⟨1, ![128]⟩
/-- The second layer's weights: two logits by 128 hidden units. -/
abbrev W2 : Shape := ⟨2, ![2, 128]⟩
/-- The second layer's biases. -/
abbrev B2 : Shape := ⟨1, ![2]⟩

/-- The reciprocal of the image's area, 2⁻¹⁶, as the word both programs carry. -/
def invArea : EReal := Ideal.ofBits .f32 0x37800000#32

/-- Every entry of an array is a real number (neither infinity). -/
def IsReal {s : Shape} (x : s.Idx → EReal) : Prop := ∀ i, ∃ r : ℝ, x i = (r : EReal)

/-! ## The pieces shared by both readings -/

/-- One hidden unit from its weighted pooled sum `s` and its bias `b`: `max (s · 2⁻¹⁶ + b) 0`. -/
def reluOf (s b : EReal) : EReal := max (s * invArea + b) 0

/-- Logit `k` of a hidden vector: `Σ_j hid j · u k j + v k`. -/
def logitOf (hid : Fin 128 → EReal) (u : Fin 2 → Fin 128 → EReal) (v : Fin 2 → EReal) (k : Fin 2) : EReal :=
  (∑ j : Fin 128, hid j * u k j) + v k

/-- The two-way softmax of the logits with their maximum subtracted first: entry `k`. -/
def shareOf (hid : Fin 128 → EReal) (u : Fin 2 → Fin 128 → EReal) (v : Fin 2 → EReal) (k : Fin 2) : EReal :=
  Ideal.div (Ideal.exp (logitOf hid u v k - max (logitOf hid u v 0) (logitOf hid u v 1)))
    (Ideal.exp (logitOf hid u v 0 - max (logitOf hid u v 0) (logitOf hid u v 1))
      + Ideal.exp (logitOf hid u v 1 - max (logitOf hid u v 0) (logitOf hid u v 1)))

/-- The logistic function of the logits' difference, the difference taken weight by weight:
    `logistic (Σ_j hid j · (u 0 j − u 1 j) + (v 0 − v 1))`. -/
def gateOf (hid : Fin 128 → EReal) (u : Fin 2 → Fin 128 → EReal) (v : Fin 2 → EReal) : EReal :=
  Ideal.logistic ((∑ j : Fin 128, hid j * (u 0 j - u 1 j)) + (v 0 - v 1))

section
variable (rgb hha : Img.Idx → EReal) (w1 : W1.Idx → EReal) (b1 : B1.Idx → EReal) (w2 : W2.Idx → EReal) (b2 : B2.Idx → EReal)

/-- The second layer's weights and biases by coordinates. -/
def w2At (k : Fin 2) (j : Fin 128) : EReal := w2 (ix2 k j)
def b2At (k : Fin 2) : EReal := b2 (ix1 k)

/-! ## Pooling by rows -/

/-- A channel's sum: its 256 rows, each the sum of its 256 entries. -/
def chanSum (x : Img.Idx → EReal) (n : Fin 16) (c : Fin 4) : EReal :=
  ∑ h : Fin 256, ∑ w : Fin 256, x (ix4 n c h w)

/-- Hidden unit `j` of sample `n` from the eight channel sums: the first stream's four against the first four
    columns of the weights, the second stream's against the last four. -/
def hiddenByChan (n : Fin 16) (j : Fin 128) : EReal :=
  reluOf ((∑ k : Fin 4, chanSum rgb n k * w1 (ix2 j (⟨k.val, by have := k.isLt; omega⟩ : Fin 8)))
      + ∑ k : Fin 4, chanSum hha n k * w1 (ix2 j (⟨k.val + 4, by have := k.isLt; omega⟩ : Fin 8)))
    (b1 (ix1 j))

/-- The blend with the logistic weight: `hha + g · (rgb − hha)`, `g` the sample's gate. -/
def blendByGate : Img.Idx → EReal := fun i =>
  hha i + gateOf (hiddenByChan rgb hha w1 b1 (i 0)) (w2At w2) (b2At b2) * (rgb i - hha i)

/-! ## Pooling by folded half-channels -/

/-- A half-channel's sum: half `f % 2` of channel `f / 2` is 128 rows, 32768 contiguous entries; entry `l` of it
    lies in row `(f % 2) · 128 + l / 256`, column `l % 256`. -/
def halfSum (x : Img.Idx → EReal) (n : Fin 16) (f : Fin 8) : EReal :=
  ∑ l : Fin 32768, x (ix4 n (⟨f.val / 2, by have := f.isLt; omega⟩ : Fin 4)
    (⟨(f.val % 2) * 128 + l.val / 256, by have := l.isLt; omega⟩ : Fin 256) (⟨l.val % 256, by omega⟩ : Fin 256))

/-- Hidden unit `j` of sample `n` from the sixteen half-channel sums, each weight met by both halves of its channel. -/
def hiddenByHalf (n : Fin 16) (j : Fin 128) : EReal :=
  reluOf ((∑ f : Fin 8, halfSum rgb n f * w1 (ix2 j (⟨f.val / 2, by have := f.isLt; omega⟩ : Fin 8)))
      + ∑ f : Fin 8, halfSum hha n f * w1 (ix2 j (⟨4 + f.val / 2, by have := f.isLt; omega⟩ : Fin 8)))
    (b1 (ix1 j))

/-- The blend with the softmax weights: `rgb · p₀ + hha · p₁`. -/
def blendByShare : Img.Idx → EReal := fun i =>
  rgb i * shareOf (hiddenByHalf rgb hha w1 b1 (i 0)) (w2At w2) (b2At b2) 0
    + hha i * shareOf (hiddenByHalf rgb hha w1 b1 (i 0)) (w2At w2) (b2At b2) 1

end

end Cert.GatedBlend

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelValue.lean ====
/-
  What the row-pooling program leaves in its result array: the blend with the logistic weight.

  Grid point `t` holds samples `4t … 4t + 3` whole. For each of its four samples it sums every channel's rows,
  forms the hidden vector from the eight channel sums, takes the logistic function of the logits'
  difference and stores `hha + g · (rgb − hha)` over the sample. The four points' blocks tile the sixteen
  samples, so the result array is `blendByGate` of the argument arrays.
-/
import proofs.«102807_g2000206893809932_pallasbulk_434_14_alg».proof.Proof.KernelIdealValue
import proofs.«102807_g2000206893809932_pallasbulk_434_14_alg».proof.Proof.GatedBlend
import proofs.«102807_g2000206893809932_pallasbulk_434_14_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlendValue

open Cert.KernelIdeal Cert.KernelIdeal.Gen Cert.KernelIdeal.Value Idealize.ShloMosaic Idealize.ShloMosaic.TcCoe Idealize.ShloMosaic.ValueIdx Idealize.SL.Sem Cert.GatedBlend

variable (m : (ℓ : Loc nD τ sig) → Buf (Elt Ideal) ℓ) (ρ : Dev nD → PrngReg)

/-! ## Pooling: a channel's sum by rows -/

/-- The two-step sum of a block (first along the last axis, then along the rows) at sample `n`, channel `c`, is the
    double sum over the channel's rows and entries. -/
theorem pooled_apply (P : FVec Ideal S4x4x256x256 .f32)
    (h3 : S4x4x256x256.Reduces [3] S4x4x256) (h2 : S4x4x256.Reduces [2] S4x4)
    (hφ : FKind.Formats .f32) (hacc : (0x00000000#32 : BitVec 32) = FKind.add.neutral .f32 hφ) (n c : Fin 4) :
    multiReduction (F := Ideal) .add [2] S4x4 (multiReduction (F := Ideal) .add [3] S4x4x256 P 0x00000000#32 h3 hφ hacc) 0x00000000#32 h2 hφ hacc (ix2 n c)
      = ∑ h : Fin 256, ∑ w : Fin 256, P (ix4 n c h w) := by
  refine (Ideal.multiReduction_add_single _ _ h2 hφ hacc (ix2 n c)).trans ?_
  refine Finset.sum_congr rfl fun h _ => ?_
  refine (Ideal.multiReduction_add_single P _ h3 hφ hacc _).trans ?_
  refine Finset.sum_congr rfl fun w _ => ?_
  exact congrArg P (funext fun a => Fin.ext (by
    match a with
    | ⟨0, _⟩ => rfl
    | ⟨1, _⟩ => rfl
    | ⟨2, _⟩ => rfl
    | ⟨3, _⟩ => rfl))

/-! ## The eight pooled numbers side by side -/

/-- Left of the seam the concatenation along axis 1 reads its first piece. -/
theorem concat_left (A B : FVec Ideal S4x4 .f32) (h : Shape.Concatenates [S4x4, S4x4] S4x8 1) (n k : Fin 4) :
    concatenate S4x8 1 [⟨S4x4, A⟩, ⟨S4x4, B⟩] h (ix2 n (Fin.castAdd 4 k)) = A (ix2 n k) :=
  concatenate_pair_apply_left 1 A B h _ rfl (ix2 n k) (fun b => by
    match b with
    | ⟨0, _⟩ => rfl
    | ⟨1, _⟩ => rfl)

/-- Right of the seam it reads its second piece, four columns back. -/
theorem concat_right (A B : FVec Ideal S4x4 .f32) (h : Shape.Concatenates [S4x4, S4x4] S4x8 1) (n k : Fin 4) :
    concatenate S4x8 1 [⟨S4x4, A⟩, ⟨S4x4, B⟩] h (ix2 n (Fin.natAdd 4 k)) = B (ix2 n k) :=
  concatenate_pair_apply_right 1 A B h _ rfl rfl (ix2 n k) (fun b hb => by
    match b with
    | ⟨0, _⟩ => rfl
    | ⟨1, _⟩ => exact absurd rfl hb) (by
      show k.val + 4 = 4 + k.val
      omega)

/-! ## The first layer's product -/

theorem lhs_axis0 (i : S4x128.Idx) (q : dot_S4x8_S128x8_S4x128_1_1_0_0_n_n.contr.Idx) :
    (dot_S4x8_S128x8_S4x128_1_1_0_0_n_n.lhsIdx i q 0).val = (i 0).val := by
  unfold DotDims.lhsIdx
  rw [dif_neg (show ¬(0 : Fin S4x8.rank) ∈ dot_S4x8_S128x8_S4x128_1_1_0_0_n_n.lhsBatch by decide),
    dif_pos (show (0 : Fin S4x8.rank) ∈ dot_S4x8_S128x8_S4x128_1_1_0_0_n_n.lhsNonContracting by decide)]
  rfl

theorem lhs_axis1 (i : S4x128.Idx) (q : dot_S4x8_S128x8_S4x128_1_1_0_0_n_n.contr.Idx) :
    (dot_S4x8_S128x8_S4x128_1_1_0_0_n_n.lhsIdx i q 1).val = (q ⟨0, by decide⟩).val :=
  dot_S4x8_S128x8_S4x128_1_1_0_0_n_n.lhsIdx_val_of_single rfl i q

theorem rhs_axis0 (i : S4x128.Idx) (q : dot_S4x8_S128x8_S4x128_1_1_0_0_n_n.contr.Idx) :
    (dot_S4x8_S128x8_S4x128_1_1_0_0_n_n.rhsIdx i q 0).val = (i 1).val := by
  unfold DotDims.rhsIdx
  rw [dif_neg (show ¬(0 : Fin S128x8.rank) ∈ dot_S4x8_S128x8_S4x128_1_1_0_0_n_n.rhsBatch by decide),
    dif_pos (show (0 : Fin S128x8.rank) ∈ dot_S4x8_S128x8_S4x128_1_1_0_0_n_n.rhsNonContracting by decide)]
  rfl

theorem rhs_axis1 (i : S4x128.Idx) (q : dot_S4x8_S128x8_S4x128_1_1_0_0_n_n.contr.Idx) :
    (dot_S4x8_S128x8_S4x128_1_1_0_0_n_n.rhsIdx i q 1).val = (q ⟨0, by decide⟩).val :=
  dot_S4x8_S128x8_S4x128_1_1_0_0_n_n.rhsIdx_val_of_single rfl i q

/-- The product into a zero accumulator, contracting both operands' second axes, at `(n, j)`: the sum over the eight
    columns of the left operand's row `n` against the right operand's row `j`. -/
theorem layer1_apply (X : FVec Ideal S4x8 .f32) (W : FVec Ideal S128x8 .f32) (n : Fin 4) (j : Fin 128) :
    matmul dot_S4x8_S128x8_S4x128_1_1_0_0_n_n none X W (constant (F := Ideal) S4x128 .f32 0x00000000#32) (ix2 n j)
      = ∑ k : Fin 8, X (ix2 n k) * W (ix2 j k) := by
  simp only [matmul]
  rw [Ideal.matmul_constant_zero_apply, ← Equiv.sum_comp (contrEquiv1 dot_S4x8_S128x8_S4x128_1_1_0_0_n_n 8 rfl rfl).symm]
  refine Finset.sum_congr rfl fun k _ => ?_
  have hk := contrEquiv1_symm_val dot_S4x8_S128x8_S4x128_1_1_0_0_n_n 8 rfl rfl k
  have el : dot_S4x8_S128x8_S4x128_1_1_0_0_n_n.lhsIdx (ix2 n j) ((contrEquiv1 dot_S4x8_S128x8_S4x128_1_1_0_0_n_n 8 rfl rfl).symm k) = ix2 n k :=
    funext fun a => Fin.ext (by
      match a with
      | ⟨0, _⟩ => exact lhs_axis0 _ _
      | ⟨1, _⟩ => exact (lhs_axis1 _ _).trans hk)
  have er : dot_S4x8_S128x8_S4x128_1_1_0_0_n_n.rhsIdx (ix2 n j) ((contrEquiv1 dot_S4x8_S128x8_S4x128_1_1_0_0_n_n 8 rfl rfl).symm k) = ix2 j k :=
    funext fun a => Fin.ext (by
      match a with
      | ⟨0, _⟩ => exact rhs_axis0 _ _
      | ⟨1, _⟩ => exact (rhs_axis1 _ _).trans hk)
  rw [el, er]

/-! ## The hidden layer of a block -/

/-- The hidden layer as the body computes it from the two blocks and the first layer's weights and biases: the eight
    pooled numbers of each sample against the weights, scaled, shifted and clipped at zero. -/
def hidV (P1 P0 : FVec Ideal S4x4x256x256 .f32) (P2 : FVec Ideal S128x8 .f32) (P3 : FVec Ideal S128 .f32) : FVec Ideal S4x128 .f32 :=
  maximumf
    (addf
      (mulf
        (matmul dot_S4x8_S128x8_S4x128_1_1_0_0_n_n none
          (concatenate S4x8 1
            [⟨S4x4, multiReduction (F := Ideal) .add [2] S4x4 (multiReduction (F := Ideal) .add [3] S4x4x256 P1 0x00000000#32 reduces_S4x4x256x256_S4x4x256 (.inl rfl) rfl) 0x00000000#32 reduces_S4x4x256_S4x4 (.inl rfl) rfl⟩,
             ⟨S4x4, multiReduction (F := Ideal) .add [2] S4x4 (multiReduction (F := Ideal) .add [3] S4x4x256 P0 0x00000000#32 reduces_S4x4x256x256_S4x4x256 (.inl rfl) rfl) 0x00000000#32 reduces_S4x4x256_S4x4 (.inl rfl) rfl⟩]
            concatenates_S4x4_S4x4_S4x8_d1)
          P2 (constant (F := Ideal) S4x128 .f32 0x00000000#32))
        (broadcast S4x128 (Scalar.ofBits (F := Ideal) .f32 0x37800000#32)))
      (broadcastTo S4x128 (shapeCast S1x128 P3 shapeCasts_S128_S1x128) broadcasts_S1x128_S4x128))
    (broadcast S4x128 (Scalar.ofBits (F := Ideal) .f32 0x00000000#32))

/-- A sum over eight columns is the sum over the first four plus the sum over the last four. -/
theorem sum_eight (f : Fin 8 → EReal) :
    ∑ k : Fin 8, f k = ∑ k : Fin 4, f (Fin.castAdd 4 k) + ∑ k : Fin 4, f (Fin.natAdd 4 k) :=
  Fin.sum_univ_add (a := 4) (b := 4) f

/-- Hidden unit `j` of the block's sample `nb`: the first stream's four channel sums against the first four columns
    of the weights, the second stream's against the last four, then `max (· * 2⁻¹⁶ + bias) 0`. -/
theorem hidV_apply (P1 P0 : FVec Ideal S4x4x256x256 .f32) (P2 : FVec Ideal S128x8 .f32) (P3 : FVec Ideal S128 .f32)
    (nb : Fin 4) (j : Fin 128) :
    hidV P1 P0 P2 P3 (ix2 nb j)
      = reluOf ((∑ k : Fin 4, (∑ h : Fin 256, ∑ w : Fin 256, P1 (ix4 nb k h w)) * P2 (ix2 j (⟨k.val, by have := k.isLt; omega⟩ : Fin 8)))
          + ∑ k : Fin 4, (∑ h : Fin 256, ∑ w : Fin 256, P0 (ix4 nb k h w)) * P2 (ix2 j (⟨k.val + 4, by have := k.isLt; omega⟩ : Fin 8)))
        (P3 (ix1 j)) := by
  have e1 := (layer1_apply
      (concatenate S4x8 1
        [⟨S4x4, multiReduction (F := Ideal) .add [2] S4x4 (multiReduction (F := Ideal) .add [3] S4x4x256 P1 0x00000000#32 reduces_S4x4x256x256_S4x4x256 (.inl rfl) rfl) 0x00000000#32 reduces_S4x4x256_S4x4 (.inl rfl) rfl⟩,
         ⟨S4x4, multiReduction (F := Ideal) .add [2] S4x4 (multiReduction (F := Ideal) .add [3] S4x4x256 P0 0x00000000#32 reduces_S4x4x256x256_S4x4x256 (.inl rfl) rfl) 0x00000000#32 reduces_S4x4x256_S4x4 (.inl rfl) rfl⟩]
        concatenates_S4x4_S4x4_S4x8_d1) P2 nb j).trans (sum_eight _)
  have eL : ∀ k : Fin 4, concatenate S4x8 1
        [⟨S4x4, multiReduction (F := Ideal) .add [2] S4x4 (multiReduction (F := Ideal) .add [3] S4x4x256 P1 0x00000000#32 reduces_S4x4x256x256_S4x4x256 (.inl rfl) rfl) 0x00000000#32 reduces_S4x4x256_S4x4 (.inl rfl) rfl⟩,
         ⟨S4x4, multiReduction (F := Ideal) .add [2] S4x4 (multiReduction (F := Ideal) .add [3] S4x4x256 P0 0x00000000#32 reduces_S4x4x256x256_S4x4x256 (.inl rfl) rfl) 0x00000000#32 reduces_S4x4x256_S4x4 (.inl rfl) rfl⟩]
        concatenates_S4x4_S4x4_S4x8_d1 (ix2 nb (Fin.castAdd 4 k)) = ∑ h : Fin 256, ∑ w : Fin 256, P1 (ix4 nb k h w) :=
    fun k => (concat_left _ _ _ nb k).trans (pooled_apply P1 _ _ _ _ nb k)
  have eR : ∀ k : Fin 4, concatenate S4x8 1
        [⟨S4x4, multiReduction (F := Ideal) .add [2] S4x4 (multiReduction (F := Ideal) .add [3] S4x4x256 P1 0x00000000#32 reduces_S4x4x256x256_S4x4x256 (.inl rfl) rfl) 0x00000000#32 reduces_S4x4x256_S4x4 (.inl rfl) rfl⟩,
         ⟨S4x4, multiReduction (F := Ideal) .add [2] S4x4 (multiReduction (F := Ideal) .add [3] S4x4x256 P0 0x00000000#32 reduces_S4x4x256x256_S4x4x256 (.inl rfl) rfl) 0x00000000#32 reduces_S4x4x256_S4x4 (.inl rfl) rfl⟩]
        concatenates_S4x4_S4x4_S4x8_d1 (ix2 nb (Fin.natAdd 4 k)) = ∑ h : Fin 256, ∑ w : Fin 256, P0 (ix4 nb k h w) :=
    fun k => (concat_right _ _ _ nb k).trans (pooled_apply P0 _ _ _ _ nb k)
  have eW : ∀ k : Fin 4, P2 (ix2 j (Fin.natAdd 4 k)) = P2 (ix2 j (⟨k.val + 4, by have := k.isLt; omega⟩ : Fin 8)) :=
    fun k => congrArg P2 (congrArg (ix2 j) (Fin.ext (Nat.add_comm 4 k.val)))
  have e2 : broadcastTo S4x128 (shapeCast S1x128 P3 shapeCasts_S128_S1x128) broadcasts_S1x128_S4x128 (ix2 nb j) = P3 (ix1 j) :=
    (broadcastTo_1b_ab_apply _ _ nb j).trans (shapeCast_a_1a_apply P3 _ 0 j)
  simp only [eL, eR, eW] at e1
  unfold reluOf invArea
  exact congrArg₂ max (congrArg₂ (· + ·) (congrArg (· * Ideal.ofBits .f32 0x37800000#32) e1) e2) Ideal.ofBits_zero_f32

/-! ## The logits' difference and the gate of a block -/

/-- The logits' difference as the body computes it from a hidden layer, the two rows of the second layer's weights and
    its two biases: the hidden layer against the rows' difference, summed along the lanes, plus the biases' difference. -/
def diffV (H : FVec Ideal S4x128 .f32) (P4 P5 : FVec Ideal S1x128 .f32) (P6 P6' : FVec Ideal S2 .f32) : FVec Ideal S4x1 .f32 :=
  addf
    (shapeCast S4x1
      (multiReduction (F := Ideal) .add [1] S4 (mulf H (broadcastTo S4x128 (subf P4 P5) broadcasts_S1x128_S4x128)) 0x00000000#32 reduces_S4x128_S4 (.inl rfl) rfl)
      shapeCasts_S4_S4x1)
    (broadcastTo S4x1
      (shapeCast S1x1 (subf (extractStridedSlice S1 ![0] P6 slices_S2_o0_S1) (extractStridedSlice S1 ![1] P6' slices_S2_o1_S1)) shapeCasts_S1_S1x1)
      broadcasts_S1x1_S4x1)

/-- At sample `nb`: `Σ_j H[nb, j] · (u₀[j] − u₁[j]) + (v[0] − v'[1])`. -/
theorem diffV_apply (H : FVec Ideal S4x128 .f32) (P4 P5 : FVec Ideal S1x128 .f32) (P6 P6' : FVec Ideal S2 .f32) (nb : Fin 4) :
    diffV H P4 P5 P6 P6' (ix2 nb (0 : Fin 1))
      = (∑ j : Fin 128, H (ix2 nb j) * (P4 (ix2 (0 : Fin 1) j) - P5 (ix2 (0 : Fin 1) j))) + (P6 (ix1 (0 : Fin 2)) - P6' (ix1 (1 : Fin 2))) := by
  have e1 : shapeCast S4x1
      (multiReduction (F := Ideal) .add [1] S4 (mulf H (broadcastTo S4x128 (subf P4 P5) broadcasts_S1x128_S4x128)) 0x00000000#32 reduces_S4x128_S4 (.inl rfl) rfl)
      shapeCasts_S4_S4x1 (ix2 nb (0 : Fin 1))
        = ∑ j : Fin 128, H (ix2 nb j) * (P4 (ix2 (0 : Fin 1) j) - P5 (ix2 (0 : Fin 1) j)) := by
    refine (Cert.LibKeepdims.shapeCast_a_a1_apply _ _ nb 0).trans ?_
    refine (Ideal.multiReduction_add_single _ _ reduces_S4x128_S4 _ _ (ix1 nb)).trans ?_
    refine Finset.sum_congr rfl fun j _ => ?_
    have hl : reduces_S4x128_S4.lift (ix1 nb) j = ix2 nb j := funext fun a => Fin.ext (by
      match a with
      | ⟨0, _⟩ => rfl
      | ⟨1, _⟩ => rfl)
    rw [hl]
    exact congrArg (H (ix2 nb j) * ·) (broadcastTo_1b_ab_apply (subf P4 P5) _ nb j)
  have s0 : extractStridedSlice S1 ![0] P6 slices_S2_o0_S1 (ix1 (0 : Fin 1)) = P6 (ix1 (0 : Fin 2)) :=
    extractStridedSlice_apply _ _ _ _ _ fun a => by
      match a with
      | ⟨0, _⟩ => rfl
  have s1 : extractStridedSlice S1 ![1] P6' slices_S2_o1_S1 (ix1 (0 : Fin 1)) = P6' (ix1 (1 : Fin 2)) :=
    extractStridedSlice_apply _ _ _ _ _ fun a => by
      match a with
      | ⟨0, _⟩ => rfl
  have e2 : broadcastTo S4x1
      (shapeCast S1x1 (subf (extractStridedSlice S1 ![0] P6 slices_S2_o0_S1) (extractStridedSlice S1 ![1] P6' slices_S2_o1_S1)) shapeCasts_S1_S1x1)
      broadcasts_S1x1_S4x1 (ix2 nb (0 : Fin 1)) = P6 (ix1 (0 : Fin 2)) - P6' (ix1 (1 : Fin 2)) := by
    refine (broadcastTo_1b_ab_apply _ _ nb 0).trans ?_
    refine (shapeCast_a_1a_apply _ _ 0 0).trans ?_
    exact congrArg₂ (· - ·) s0 s1
  exact congrArg₂ (· + ·) e1 e2

/-- The gate payload is the logistic function of the logits' difference of the hidden layer, reshaped. -/
theorem pay2_stages (P1 P0 : FVec Ideal S4x4x256x256 .f32) (P2 : FVec Ideal S128x8 .f32) (P3 : FVec Ideal S128 .f32)
    (P4 P5 : FVec Ideal S1x128 .f32) (P6 : FVec Ideal S2 .f32) :
    k0_pay2 (F := Ideal) P1 P0 P2 P3 P4 P5 P6 P6
      = shapeCast S4x1x1x1 (logistic (diffV (hidV P1 P0 P2 P3) P4 P5 P6 P6)) shapeCasts_S4x1_S4x1x1x1 := rfl

/-- THE GATE OF A BLOCK'S SAMPLE: the logistic function of `Σ_j hid_j · (u₀[j] − u₁[j]) + (v[0] − v[1])`, the hidden
    vector that of the sample's eight channel sums. -/
theorem gate_apply (P1 P0 : FVec Ideal S4x4x256x256 .f32) (P2 : FVec Ideal S128x8 .f32) (P3 : FVec Ideal S128 .f32)
    (P4 P5 : FVec Ideal S1x128 .f32) (P6 : FVec Ideal S2 .f32) (nb : Fin 4) :
    k0_pay2 (F := Ideal) P1 P0 P2 P3 P4 P5 P6 P6 (ix4 nb (0 : Fin 1) (0 : Fin 1) (0 : Fin 1))
      = Ideal.logistic
          ((∑ j : Fin 128,
              reluOf ((∑ k : Fin 4, (∑ h : Fin 256, ∑ w : Fin 256, P1 (ix4 nb k h w)) * P2 (ix2 j (⟨k.val, by have := k.isLt; omega⟩ : Fin 8)))
                  + ∑ k : Fin 4, (∑ h : Fin 256, ∑ w : Fin 256, P0 (ix4 nb k h w)) * P2 (ix2 j (⟨k.val + 4, by have := k.isLt; omega⟩ : Fin 8)))
                (P3 (ix1 j))
              * (P4 (ix2 (0 : Fin 1) j) - P5 (ix2 (0 : Fin 1) j)))
            + (P6 (ix1 (0 : Fin 2)) - P6 (ix1 (1 : Fin 2)))) := by
  rw [pay2_stages]
  refine (shapeCast_apply _ _ (ix4 nb (0 : Fin 1) (0 : Fin 1) (0 : Fin 1)) (ix2 nb (0 : Fin 1)) ?_).trans ?_
  · rw [Shape.rowMajor_val_four, Shape.rowMajor_val_two]
    show nb.val * 1 + 0 = ((nb.val * 1 + 0) * 1 + 0) * 1 + 0
    omega
  · show Ideal.logistic (diffV (hidV P1 P0 P2 P3) P4 P5 P6 P6 (ix2 nb (0 : Fin 1))) = _
    rw [diffV_apply]
    simp only [hidV_apply]

/-- The same, against arrays: if at sample `nb` the two blocks hold sample `n` of `rgb` and `hha`, the weights and biases
    are those of the arrays, and the two weight rows are rows 0 and 1 of `w2`, the block's gate is the gate of sample `n`. -/
theorem gate_eq (P1 P0 : FVec Ideal S4x4x256x256 .f32) (P2 : FVec Ideal S128x8 .f32) (P3 : FVec Ideal S128 .f32)
    (P4 P5 : FVec Ideal S1x128 .f32) (P6 : FVec Ideal S2 .f32) (nb : Fin 4)
    (rgb hha : Img.Idx → EReal) (w1 : W1.Idx → EReal) (b1 : B1.Idx → EReal) (w2 : W2.Idx → EReal) (b2 : B2.Idx → EReal)
    (n : Fin 16)
    (h1 : ∀ (k : Fin 4) (h w : Fin 256), P1 (ix4 nb k h w) = rgb (ix4 n k h w))
    (h0 : ∀ (k : Fin 4) (h w : Fin 256), P0 (ix4 nb k h w) = hha (ix4 n k h w))
    (h2 : ∀ (j : Fin 128) (k : Fin 8), P2 (ix2 j k) = w1 (ix2 j k))
    (h3 : ∀ j : Fin 128, P3 (ix1 j) = b1 (ix1 j))
    (h4 : ∀ j : Fin 128, P4 (ix2 (0 : Fin 1) j) = w2 (ix2 (0 : Fin 2) j))
    (h5 : ∀ j : Fin 128, P5 (ix2 (0 : Fin 1) j) = w2 (ix2 (1 : Fin 2) j))
    (h6 : ∀ r : Fin 2, P6 (ix1 r) = b2 (ix1 r)) :
    k0_pay2 (F := Ideal) P1 P0 P2 P3 P4 P5 P6 P6 (ix4 nb (0 : Fin 1) (0 : Fin 1) (0 : Fin 1))
      = gateOf (hiddenByChan rgb hha w1 b1 n) (w2At w2) (b2At b2) := by
  rw [gate_apply]
  simp only [h1, h0, h2, h3, h4, h5, h6]
  rfl

/-! ## What one grid point leaves in its block -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The load of the second layer's first row reads row 0 of the weights … -/
theorem ld_row0 (x4 : Vec Ideal S2x128 .f32) (j : Fin 128) :
    View.ld x4 r0_3 (ix2 (0 : Fin 1) j) = x4 (ix2 (0 : Fin 2) j) :=
  congrArg x4 (funext fun a => Fin.ext (by
    match a with
    | ⟨0, _⟩ => rfl
    | ⟨1, _⟩ => show 0 + 1 * j.val = j.val; omega))

/-- … and the load of its second row reads row 1. -/
theorem ld_row1 (x4 : Vec Ideal S2x128 .f32) (j : Fin 128) :
    View.ld x4 r0_4 (ix2 (0 : Fin 1) j) = x4 (ix2 (1 : Fin 2) j) :=
  congrArg x4 (funext fun a => Fin.ext (by
    match a with
    | ⟨0, _⟩ => rfl
    | ⟨1, _⟩ => show 0 + 1 * j.val = j.val; omega))

/-- THE BLOCK A POINT LEAVES, by coordinates: if the two image blocks are samples `n` of the streams where the block
    has sample `nb`, and the small operands are the whole weight and bias arrays, the block at `(nb, k, h, w)` is the
    gated blend at `(n, k, h, w)`. -/
theorem blend_block (x0 x1 : Vec Ideal S4x4x256x256 .f32) (x2 : Vec Ideal S128x8 .f32) (x3 : Vec Ideal S128 .f32)
    (x4 : Vec Ideal S2x128 .f32) (x5 : Vec Ideal S2 .f32)
    (rgb hha : Img.Idx → EReal) (w1 : W1.Idx → EReal) (b1 : B1.Idx → EReal) (w2 : W2.Idx → EReal) (b2 : B2.Idx → EReal)
    (n : Fin 16) (nb : Fin 4)
    (e0 : ∀ (k : Fin 4) (h w : Fin 256), x0 (ix4 nb k h w) = rgb (ix4 n k h w))
    (e1 : ∀ (k : Fin 4) (h w : Fin 256), x1 (ix4 nb k h w) = hha (ix4 n k h w))
    (e2 : ∀ (j : Fin 128) (k : Fin 8), x2 (ix2 j k) = w1 (ix2 j k))
    (e3 : ∀ j : Fin 128, x3 (ix1 j) = b1 (ix1 j))
    (e4 : ∀ (r : Fin 2) (j : Fin 128), x4 (ix2 r j) = w2 (ix2 r j))
    (e5 : ∀ r : Fin 2, x5 (ix1 r) = b2 (ix1 r))
    (k : Fin 4) (h w : Fin 256) :
    out0_6 (F := Ideal) x0 x1 x2 x3 x4 x5 (ix4 nb k h w) = blendByGate rgb hha w1 b1 w2 b2 (ix4 n k h w) := by
  unfold out0_6
  refine (canon6_eq (F := Ideal) (View.ld x1 r0_0) (View.ld x0 r0_0) (View.ld x2 r0_1) (View.ld x3 r0_2) (View.ld x4 r0_3)
    (View.ld x4 r0_4) (View.ld x5 r0_5) (ix4 nb k h w)).trans ?_
  have i0 : ix6_0 (ix4 nb k h w) = ix4 nb k h w := funext fun a => by
    match a with
    | ⟨0, _⟩ => rfl
    | ⟨1, _⟩ => rfl
    | ⟨2, _⟩ => rfl
    | ⟨3, _⟩ => rfl
  have i1 : ix6_1 (ix4 nb k h w) = ix4 nb (0 : Fin 1) (0 : Fin 1) (0 : Fin 1) := funext fun a => by
    match a with
    | ⟨0, _⟩ => rfl
    | ⟨1, _⟩ => rfl
    | ⟨2, _⟩ => rfl
    | ⟨3, _⟩ => rfl
  have i2 : ix6_2 (ix4 nb k h w) = ix4 nb k h w := funext fun a => by
    match a with
    | ⟨0, _⟩ => rfl
    | ⟨1, _⟩ => rfl
    | ⟨2, _⟩ => rfl
    | ⟨3, _⟩ => rfl
  have i3 : ix6_3 (ix4 nb k h w) = ix4 nb k h w := funext fun a => by
    match a with
    | ⟨0, _⟩ => rfl
    | ⟨1, _⟩ => rfl
    | ⟨2, _⟩ => rfl
    | ⟨3, _⟩ => rfl
  have l0 : View.ld x0 r0_0 = x0 := View.ld_unit_zero (S := S4x4x256x256) hz4 _ x0
  have l1 : View.ld x1 r0_0 = x1 := View.ld_unit_zero (S := S4x4x256x256) hz4 _ x1
  have l2 : View.ld x2 r0_1 = x2 := View.ld_unit_zero (S := S128x8) hz2 _ x2
  have l3 : View.ld x3 r0_2 = x3 := View.ld_unit_zero (S := S128) hz1 _ x3
  have l5 : View.ld x5 r0_5 = x5 := View.ld_unit_zero (S := S2) hz1 _ x5
  have g := gate_eq (View.ld x0 r0_0) (View.ld x1 r0_0) (View.ld x2 r0_1) (View.ld x3 r0_2) (View.ld x4 r0_3) (View.ld x4 r0_4)
    (View.ld x5 r0_5) nb rgb hha w1 b1 w2 b2 n
    (fun k h w => (congrFun l0 _).trans (e0 k h w)) (fun k h w => (congrFun l1 _).trans (e1 k h w))
    (fun j k => (congrFun l2 _).trans (e2 j k)) (fun j => (congrFun l3 _).trans (e3 j))
    (fun j => (ld_row0 x4 j).trans (e4 0 j)) (fun j => (ld_row1 x4 j).trans (e4 1 j))
    (fun r => (congrFun l5 _).trans (e5 r))
  have a0 : (View.ld x0 r0_0) (ix4 nb k h w) = rgb (ix4 n k h w) := (congrFun l0 _).trans (e0 k h w)
  have a1 : (View.ld x1 r0_0) (ix4 nb k h w) = hha (ix4 n k h w) := (congrFun l1 _).trans (e1 k h w)
  show (View.ld x1 r0_0) (ix6_0 (ix4 nb k h w))
      + (k0_pay2 (F := Ideal) (View.ld x0 r0_0) (View.ld x1 r0_0) (View.ld x2 r0_1) (View.ld x3 r0_2) (View.ld x4 r0_3) (View.ld x4 r0_4) (View.ld x5 r0_5) (View.ld x5 r0_5)) (ix6_1 (ix4 nb k h w))
        * ((View.ld x0 r0_0) (ix6_2 (ix4 nb k h w)) - (View.ld x1 r0_0) (ix6_3 (ix4 nb k h w)))
    = hha (ix4 n k h w) + gateOf (hiddenByChan rgb hha w1 b1 n) (w2At w2) (b2At b2) * (rgb (ix4 n k h w) - hha (ix4 n k h w))
  rw [i0, i1, i2, i3, g, a0, a1]

/-- The same with the two indices given by their coordinates: block index `y` under array index `i`, the block `q`
    blocks of four samples along. -/
theorem blend_block_at (x0 x1 : Vec Ideal S4x4x256x256 .f32) (x2 : Vec Ideal S128x8 .f32) (x3 : Vec Ideal S128 .f32)
    (x4 : Vec Ideal S2x128 .f32) (x5 : Vec Ideal S2 .f32)
    (rgb hha : Img.Idx → EReal) (w1 : W1.Idx → EReal) (b1 : B1.Idx → EReal) (w2 : W2.Idx → EReal) (b2 : B2.Idx → EReal)
    (q : Nat)
    (e0 : ∀ (z : S4x4x256x256.Idx) (g : Img.Idx), (g 0).val = q * 4 + (z 0).val → (g 1).val = (z 1).val →
      (g 2).val = (z 2).val → (g 3).val = (z 3).val → x0 z = rgb g)
    (e1 : ∀ (z : S4x4x256x256.Idx) (g : Img.Idx), (g 0).val = q * 4 + (z 0).val → (g 1).val = (z 1).val →
      (g 2).val = (z 2).val → (g 3).val = (z 3).val → x1 z = hha g)
    (e2 : ∀ z : S128x8.Idx, x2 z = w1 z) (e3 : ∀ z : S128.Idx, x3 z = b1 z)
    (e4 : ∀ z : S2x128.Idx, x4 z = w2 z) (e5 : ∀ z : S2.Idx, x5 z = b2 z)
    (y : S4x4x256x256.Idx) (i : Img.Idx)
    (hi0 : (i 0).val = q * 4 + (y 0).val) (hi1 : (i 1).val = (y 1).val) (hi2 : (i 2).val = (y 2).val) (hi3 : (i 3).val = (y 3).val) :
    out0_6 (F := Ideal) x0 x1 x2 x3 x4 x5 y = blendByGate rgb hha w1 b1 w2 b2 i := by
  obtain ⟨nb, k, h, w, rfl⟩ : ∃ (nb k : Fin 4) (h w : Fin 256), y = ix4 nb k h w := ⟨y 0, y 1, y 2, y 3, eq_ix4 y⟩
  obtain ⟨n, k', h', w', rfl⟩ : ∃ (n : Fin 16) (k' : Fin 4) (h' w' : Fin 256), i = ix4 n k' h' w' :=
    ⟨i 0, i 1, i 2, i 3, eq_ix4 i⟩
  obtain rfl : k' = k := Fin.ext hi1
  obtain rfl : h' = h := Fin.ext hi2
  obtain rfl : w' = w := Fin.ext hi3
  exact blend_block x0 x1 x2 x3 x4 x5 rgb hha w1 b1 w2 b2 n nb
    (fun k h w => e0 _ _ hi0 rfl rfl rfl) (fun k h w => e1 _ _ hi0 rfl rfl rfl)
    (fun j k => e2 _) (fun j => e3 _) (fun r j => e4 _) (fun r => e5 _) k' h' w'

/-! ## From the blocks to the array -/

/-- The index maps over the four grid points: the two image windows and the output window sit at block `t` along the
    samples and at block 0 on the other axes; the weights and biases are one block each. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)

/-- Every block of four samples is some point's. -/
theorem idx_onto : ∀ q : Fin 4, ∃ t : Fin cfg0.N, t.val = q.val :=
  (by decide +kernel : ∀ q : Fin 4, ∃ t : Fin grid0.N, t.val = q.val)

/-- WHAT POINT `t` WRITES BACK is block `t` of the gated blend of the argument arrays. -/
theorem flushed_eq (c : Dev nD) (t : Fin cfg0.N) :
    (dats m 0 c).flushed 6 t = ((cfg0.win 6).blk t).view.read (Elt Ideal)
      (blendByGate (V m c main_arg0) (V m c main_arg1) (V m c main_arg2) (V m c main_arg3) (V m c main_arg4) (V m c main_arg5)) := by
  rw [Value.flushed6]
  obtain ⟨a00, a01, a02, a03, a10, a11, a12, a13, a20, a21, a30, a40, a41, a50, a60, a61, a62, a63⟩ := idx_facts t
  funext y
  show out0_6 (iblk m c 0 t) (iblk m c 1 t) (iblk m c 2 t) (iblk m c 3 t) (iblk m c 4 t) (iblk m c 5 t) ((cfg0.win 6).xinj (grid0.coords t) y)
    = blendByGate (V m c main_arg0) (V m c main_arg1) (V m c main_arg2) (V m c main_arg3) (V m c main_arg4) (V m c main_arg5)
        (((cfg0.win 6).blk t).view.emb y)
  refine blend_block_at (iblk m c 0 t) (iblk m c 1 t) (iblk m c 2 t) (iblk m c 3 t) (iblk m c 4 t) (iblk m c 5 t)
    (V m c main_arg0) (V m c main_arg1) (V m c main_arg2) (V m c main_arg3) (V m c main_arg4) (V m c main_arg5) t.val
    ?_ ?_ ?_ ?_ ?_ ?_ ((cfg0.win 6).xinj (grid0.coords t) y) (((cfg0.win 6).blk t).view.emb y) ?_ ?_ ?_ ?_
  · intro z g h0 h1 h2 h3
    show V m c main_arg0 (((cfg0.win 0).blk t).view.emb z) = V m c main_arg0 g
    refine congrArg _ (funext fun a => Fin.ext ?_)
    match a with
    | ⟨0, _⟩ => show win0_0.index t (0 : Fin 4) * 4 + 1 * (z 0).val = (g 0).val; rw [a00, h0]; omega
    | ⟨1, _⟩ => show win0_0.index t (1 : Fin 4) * 4 + 1 * (z 1).val = (g 1).val; rw [a01, h1]; omega
    | ⟨2, _⟩ => show win0_0.index t (2 : Fin 4) * 256 + 1 * (z 2).val = (g 2).val; rw [a02, h2]; omega
    | ⟨3, _⟩ => show win0_0.index t (3 : Fin 4) * 256 + 1 * (z 3).val = (g 3).val; rw [a03, h3]; omega
  · intro z g h0 h1 h2 h3
    show V m c main_arg1 (((cfg0.win 1).blk t).view.emb z) = V m c main_arg1 g
    refine congrArg _ (funext fun a => Fin.ext ?_)
    match a with
    | ⟨0, _⟩ => show win0_1.index t (0 : Fin 4) * 4 + 1 * (z 0).val = (g 0).val; rw [a10, h0]; omega
    | ⟨1, _⟩ => show win0_1.index t (1 : Fin 4) * 4 + 1 * (z 1).val = (g 1).val; rw [a11, h1]; omega
    | ⟨2, _⟩ => show win0_1.index t (2 : Fin 4) * 256 + 1 * (z 2).val = (g 2).val; rw [a12, h2]; omega
    | ⟨3, _⟩ => show win0_1.index t (3 : Fin 4) * 256 + 1 * (z 3).val = (g 3).val; rw [a13, h3]; omega
  · intro z
    show V m c main_arg2 (((cfg0.win 2).blk t).view.emb z) = V m c main_arg2 z
    refine congrArg _ (funext fun a => Fin.ext ?_)
    match a with
    | ⟨0, _⟩ => show win0_2.index t (0 : Fin 2) * 128 + 1 * (z 0).val = (z 0).val; rw [a20]; omega
    | ⟨1, _⟩ => show win0_2.index t (1 : Fin 2) * 8 + 1 * (z 1).val = (z 1).val; rw [a21]; omega
  · intro z
    show V m c main_arg3 (((cfg0.win 3).blk t).view.emb z) = V m c main_arg3 z
    refine congrArg _ (funext fun a => Fin.ext ?_)
    match a with
    | ⟨0, _⟩ => show win0_3.index t (0 : Fin 1) * 128 + 1 * (z 0).val = (z 0).val; rw [a30]; omega
  · intro z
    show V m c main_arg4 (((cfg0.win 4).blk t).view.emb z) = V m c main_arg4 z
    refine congrArg _ (funext fun a => Fin.ext ?_)
    match a with
    | ⟨0, _⟩ => show win0_4.index t (0 : Fin 2) * 2 + 1 * (z 0).val = (z 0).val; rw [a40]; omega
    | ⟨1, _⟩ => show win0_4.index t (1 : Fin 2) * 128 + 1 * (z 1).val = (z 1).val; rw [a41]; omega
  · intro z
    show V m c main_arg5 (((cfg0.win 5).blk t).view.emb z) = V m c main_arg5 z
    refine congrArg _ (funext fun a => Fin.ext ?_)
    match a with
    | ⟨0, _⟩ => show win0_5.index t (0 : Fin 1) * 2 + 1 * (z 0).val = (z 0).val; rw [a50]; omega
  · show win0_6.index t (0 : Fin 4) * 4 + 1 * (y 0).val = t.val * 4 + (y 0).val; rw [a60]; omega
  · show win0_6.index t (1 : Fin 4) * 4 + 1 * (y 1).val = (y 1).val; rw [a61]; omega
  · show win0_6.index t (2 : Fin 4) * 256 + 1 * (y 2).val = (y 2).val; rw [a62]; omega
  · show win0_6.index t (3 : Fin 4) * 256 + 1 * (y 3).val = (y 3).val; rw [a63]; omega

/-- An index of the result array is in point `t`'s block iff each coordinate is in the block's range on its axis. -/
theorem mem_blk (t : Fin cfg0.N) (i : S16x4x256x256.Idx) :
    i ∈ ((cfg0.win 6).blk t).view.set ↔ ∀ a : Fin 4, win0_6.index t a * S4x4x256x256.size a ≤ (i a).val
      ∧ (i a).val < win0_6.index t a * S4x4x256x256.size a + S4x4x256x256.size a := by
  show i ∈ ((View.whole main_v0).slice (win0_6.rect t)).set ↔ _
  rw [View.set_slice_whole, Rect.mem_set_unit]
  exact Iff.rfl

/-- Sample `n` lies in the block of point `n / 4`: the four points' blocks cover the sixteen samples. -/
theorem cover (i : S16x4x256x256.Idx) : ∃ t : Fin cfg0.N, (cfg0.win 6).flush t = true ∧ i ∈ ((cfg0.win 6).blk t).view.set := by
  have hi0 : (i 0).val < 16 := (i 0).isLt
  have hi1 : (i 1).val < 4 := (i 1).isLt
  have hi2 : (i 2).val < 256 := (i 2).isLt
  have hi3 : (i 3).val < 256 := (i 3).isLt
  obtain ⟨t, ht⟩ := idx_onto ⟨(i 0).val / 4, by omega⟩
  have ht' : t.val = (i 0).val / 4 := ht
  obtain ⟨a00, a01, a02, a03, a10, a11, a12, a13, a20, a21, a30, a40, a41, a50, a60, a61, a62, a63⟩ := idx_facts t
  refine ⟨t, flush0_6 t, ?_⟩
  rw [mem_blk]
  intro a
  match a with
  | ⟨0, _⟩ => show win0_6.index t (0 : Fin 4) * 4 ≤ (i 0).val ∧ (i 0).val < win0_6.index t (0 : Fin 4) * 4 + 4; rw [a60]; omega
  | ⟨1, _⟩ => show win0_6.index t (1 : Fin 4) * 4 ≤ (i 1).val ∧ (i 1).val < win0_6.index t (1 : Fin 4) * 4 + 4; rw [a61]; omega
  | ⟨2, _⟩ => show win0_6.index t (2 : Fin 4) * 256 ≤ (i 2).val ∧ (i 2).val < win0_6.index t (2 : Fin 4) * 256 + 256; rw [a62]; omega
  | ⟨3, _⟩ => show win0_6.index t (3 : Fin 4) * 256 ≤ (i 3).val ∧ (i 3).val < win0_6.index t (3 : Fin 4) * 256 + 256; rw [a63]; omega

/-- THE RESULT ARRAY after the run is the gated blend of the argument arrays. -/
theorem final (c : Dev nD) : (dats m 0 c).arrAt 6 cfg0.N
    = blendByGate (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  (dats m 0 c).arrAt_eq_of_cover 6 _ (fun t _ => flushed_eq m c t) cover

/-- The program's run: the result array is the gated blend of the arguments, which are unchanged. -/
theorem run : θ_run (defs (F := Ideal)) (onTc (τ := τ) (main (F := Ideal))) ⟨m, fun _ => 0, ρ⟩ fun r => ∀ c : Dev nD,
      r.2.mem ((c : Thread nD τ).loc main_v0)
        = blendByGate (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.BlendValue

end
-- ==== Proof.RefBlock.lean ====
/-
  One grid point of the folded program, read at an index of its block.

  The point holds one sample: both streams as 8 half-channels of 32768 entries, the first-layer weights of
  each stream with every row doubled (8 × 128), the bias row, the second-layer weights transposed (128 × 2)
  and their bias row. What it stores at entry `(0, g, l)` is the first stream's entry times the softmax's
  first share plus the second stream's entry times its second share, the shares computed from the hidden
  vector of the point's own half-channel sums.
-/
import proofs.«102807_g2000206893809932_pallasbulk_434_14_alg».proof.Proof.Gen.ReferenceIdeal.Frame
import proofs.«102807_g2000206893809932_pallasbulk_434_14_alg».proof.Proof.GatedBlend
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.BlendBlock

open Cert.ReferenceIdeal Cert.ReferenceIdeal.Gen Idealize.ShloMosaic Idealize.ShloMosaic.ValueIdx Cert.GatedBlend

/-- Hidden unit `j` of the point: the eight half-channel sums of each stream against that stream's doubled
    weight rows, scaled, shifted and clipped. -/
def hiddenOfBlock (x0 x1 : FVec Ideal S1x8x32768 .f32) (x2 x3 : FVec Ideal S8x128 .f32) (x4 : FVec Ideal S1x128 .f32)
    (j : Fin 128) : EReal :=
  reluOf ((∑ g : Fin 8, (∑ l : Fin 32768, x0 (ix3 (0 : Fin 1) g l)) * x2 (ix2 g j))
      + ∑ g : Fin 8, (∑ l : Fin 32768, x1 (ix3 (0 : Fin 1) g l)) * x3 (ix2 g j))
    (x4 (ix2 (0 : Fin 1) j))

/-! ## Each non-pointwise operation of the point, read at an index -/

/-- The sum over the last axis of a `[1, 8, 32768]` block, at `(0, g)`: the sum over the 32768 entries of half-channel `g`. -/
theorem laneSum_apply (x : FVec Ideal S1x8x32768 .f32) (h0 : S1x8x32768.ShapeCasts S1x8x32768)
    (h : S1x8x32768.Reduces [2] S1x8) (hφ : FKind.Formats .f32)
    (hacc : (0x00000000#32 : BitVec 32) = FKind.add.neutral .f32 hφ) (g : Fin 8) :
    multiReduction (F := Ideal) .add [2] S1x8 (shapeCast S1x8x32768 x h0) 0x00000000#32 h hφ hacc (ix2 (0 : Fin 1) g)
      = ∑ l : Fin 32768, x (ix3 (0 : Fin 1) g l) := by
  rw [shapeCast_self]
  refine (Ideal.multiReduction_add_single x _ h hφ hacc (ix2 (0 : Fin 1) g)).trans ?_
  refine Finset.sum_congr rfl fun l _ => congrArg x (funext fun a => Fin.ext ?_)
  match a with
  | ⟨0, _⟩ => rfl
  | ⟨1, _⟩ => rfl
  | ⟨2, _⟩ => rfl

/-- The eight lane sums of a stream's block, as the row the point forms. -/
def laneSums (x : FVec Ideal S1x8x32768 .f32) : FVec Ideal S1x8 .f32 :=
  multiReduction (F := Ideal) .add [2] S1x8 (shapeCast S1x8x32768 x shapeCasts_S1x8x32768_S1x8x32768) 0x00000000#32
    reduces_S1x8x32768_S1x8 (.inl rfl) rfl

/-- Entry `(0, g)` of the lane sums: the sum of half-channel `g`. -/
theorem laneSums_apply (x : FVec Ideal S1x8x32768 .f32) (g : Fin 8) :
    laneSums x (ix2 (0 : Fin 1) g) = ∑ l : Fin 32768, x (ix3 (0 : Fin 1) g l) :=
  laneSum_apply x _ _ _ _ g

/-! ### The first layer's product: a row of 8 against an 8 × 128 matrix -/

/-- The left operand's index at result `i` and contraction place `q`: row `i 0` … -/
theorem lhs8_0 (i : S1x128.Idx) (q : dot_S1x8_S8x128_S1x128_1_0_0_1_n_n.contr.Idx) :
    (dot_S1x8_S8x128_S1x128_1_0_0_1_n_n.lhsIdx i q 0).val = (i 0).val := by
  unfold DotDims.lhsIdx
  rw [dif_neg (show ¬(0 : Fin S1x8.rank) ∈ dot_S1x8_S8x128_S1x128_1_0_0_1_n_n.lhsBatch by decide),
    dif_pos (show (0 : Fin S1x8.rank) ∈ dot_S1x8_S8x128_S1x128_1_0_0_1_n_n.lhsNonContracting by decide)]
  rfl
/-- … column `q`. -/
theorem lhs8_1 (i : S1x128.Idx) (q : dot_S1x8_S8x128_S1x128_1_0_0_1_n_n.contr.Idx) :
    (dot_S1x8_S8x128_S1x128_1_0_0_1_n_n.lhsIdx i q 1).val = (q ⟨0, by decide⟩).val :=
  dot_S1x8_S8x128_S1x128_1_0_0_1_n_n.lhsIdx_val_of_single rfl i q
/-- The right operand's index there: row `q` … -/
theorem rhs8_0 (i : S1x128.Idx) (q : dot_S1x8_S8x128_S1x128_1_0_0_1_n_n.contr.Idx) :
    (dot_S1x8_S8x128_S1x128_1_0_0_1_n_n.rhsIdx i q 0).val = (q ⟨0, by decide⟩).val :=
  dot_S1x8_S8x128_S1x128_1_0_0_1_n_n.rhsIdx_val_of_single rfl i q
/-- … column `i 1`. -/
theorem rhs8_1 (i : S1x128.Idx) (q : dot_S1x8_S8x128_S1x128_1_0_0_1_n_n.contr.Idx) :
    (dot_S1x8_S8x128_S1x128_1_0_0_1_n_n.rhsIdx i q 1).val = (i 1).val := by
  unfold DotDims.rhsIdx
  rw [dif_neg (show ¬(1 : Fin S8x128.rank) ∈ dot_S1x8_S8x128_S1x128_1_0_0_1_n_n.rhsBatch by decide),
    dif_pos (show (1 : Fin S8x128.rank) ∈ dot_S1x8_S8x128_S1x128_1_0_0_1_n_n.rhsNonContracting by decide)]
  rfl

/-- A row of 8 times an 8 × 128 matrix, into the zero row. -/
def mm8 (a : FVec Ideal S1x8 .f32) (w : FVec Ideal S8x128 .f32) : FVec Ideal S1x128 .f32 :=
  matmul (F := Ideal) dot_S1x8_S8x128_S1x128_1_0_0_1_n_n none a (shapeCast S8x128 w shapeCasts_S8x128_S8x128)
    (constant (F := Ideal) S1x128 .f32 0x00000000#32)

/-- Its entry `(0, j)`: `Σ_g a(0, g) · w(g, j)`. -/
theorem mm8_apply (a : FVec Ideal S1x8 .f32) (w : FVec Ideal S8x128 .f32) (j : Fin 128) :
    mm8 a w (ix2 (0 : Fin 1) j) = ∑ g : Fin 8, a (ix2 (0 : Fin 1) g) * w (ix2 g j) := by
  unfold mm8
  rw [shapeCast_self]
  simp only [matmul]
  rw [Ideal.matmul_constant_zero_apply, ← Equiv.sum_comp (contrEquiv1 dot_S1x8_S8x128_S1x128_1_0_0_1_n_n 8 rfl rfl).symm]
  refine Finset.sum_congr rfl fun k _ => ?_
  have hk := contrEquiv1_symm_val dot_S1x8_S8x128_S1x128_1_0_0_1_n_n 8 rfl rfl k
  have el : dot_S1x8_S8x128_S1x128_1_0_0_1_n_n.lhsIdx (ix2 (0 : Fin 1) j)
      ((contrEquiv1 dot_S1x8_S8x128_S1x128_1_0_0_1_n_n 8 rfl rfl).symm k) = ix2 (0 : Fin 1) k := funext fun b => Fin.ext (by
    match b with
    | ⟨0, _⟩ => exact lhs8_0 _ _
    | ⟨1, _⟩ => exact (lhs8_1 _ _).trans hk)
  have er : dot_S1x8_S8x128_S1x128_1_0_0_1_n_n.rhsIdx (ix2 (0 : Fin 1) j)
      ((contrEquiv1 dot_S1x8_S8x128_S1x128_1_0_0_1_n_n 8 rfl rfl).symm k) = ix2 k j := funext fun b => Fin.ext (by
    match b with
    | ⟨0, _⟩ => exact (rhs8_0 _ _).trans hk
    | ⟨1, _⟩ => exact rhs8_1 _ _)
  rw [el, er]

/-! ### The second layer's product: a row of 128 against a 128 × 2 matrix -/

/-- The left operand's index at result `i` and contraction place `q`: row `i 0` … -/
theorem lhs128_0 (i : S1x2.Idx) (q : dot_S1x128_S128x2_S1x2_1_0_0_1_n_n.contr.Idx) :
    (dot_S1x128_S128x2_S1x2_1_0_0_1_n_n.lhsIdx i q 0).val = (i 0).val := by
  unfold DotDims.lhsIdx
  rw [dif_neg (show ¬(0 : Fin S1x128.rank) ∈ dot_S1x128_S128x2_S1x2_1_0_0_1_n_n.lhsBatch by decide),
    dif_pos (show (0 : Fin S1x128.rank) ∈ dot_S1x128_S128x2_S1x2_1_0_0_1_n_n.lhsNonContracting by decide)]
  rfl
/-- … column `q`. -/
theorem lhs128_1 (i : S1x2.Idx) (q : dot_S1x128_S128x2_S1x2_1_0_0_1_n_n.contr.Idx) :
    (dot_S1x128_S128x2_S1x2_1_0_0_1_n_n.lhsIdx i q 1).val = (q ⟨0, by decide⟩).val :=
  dot_S1x128_S128x2_S1x2_1_0_0_1_n_n.lhsIdx_val_of_single rfl i q
/-- The right operand's index there: row `q` … -/
theorem rhs128_0 (i : S1x2.Idx) (q : dot_S1x128_S128x2_S1x2_1_0_0_1_n_n.contr.Idx) :
    (dot_S1x128_S128x2_S1x2_1_0_0_1_n_n.rhsIdx i q 0).val = (q ⟨0, by decide⟩).val :=
  dot_S1x128_S128x2_S1x2_1_0_0_1_n_n.rhsIdx_val_of_single rfl i q
/-- … column `i 1`. -/
theorem rhs128_1 (i : S1x2.Idx) (q : dot_S1x128_S128x2_S1x2_1_0_0_1_n_n.contr.Idx) :
    (dot_S1x128_S128x2_S1x2_1_0_0_1_n_n.rhsIdx i q 1).val = (i 1).val := by
  unfold DotDims.rhsIdx
  rw [dif_neg (show ¬(1 : Fin S128x2.rank) ∈ dot_S1x128_S128x2_S1x2_1_0_0_1_n_n.rhsBatch by decide),
    dif_pos (show (1 : Fin S128x2.rank) ∈ dot_S1x128_S128x2_S1x2_1_0_0_1_n_n.rhsNonContracting by decide)]
  rfl

/-- A row of 128 times a 128 × 2 matrix, into the zero row. -/
def mm128 (a : FVec Ideal S1x128 .f32) (w : FVec Ideal S128x2 .f32) : FVec Ideal S1x2 .f32 :=
  matmul (F := Ideal) dot_S1x128_S128x2_S1x2_1_0_0_1_n_n none a (shapeCast S128x2 w shapeCasts_S128x2_S128x2)
    (constant (F := Ideal) S1x2 .f32 0x00000000#32)

/-- Its entry `(0, k)`: `Σ_j a(0, j) · w(j, k)`. -/
theorem mm128_apply (a : FVec Ideal S1x128 .f32) (w : FVec Ideal S128x2 .f32) (k : Fin 2) :
    mm128 a w (ix2 (0 : Fin 1) k) = ∑ j : Fin 128, a (ix2 (0 : Fin 1) j) * w (ix2 j k) := by
  unfold mm128
  rw [shapeCast_self]
  simp only [matmul]
  rw [Ideal.matmul_constant_zero_apply, ← Equiv.sum_comp (contrEquiv1 dot_S1x128_S128x2_S1x2_1_0_0_1_n_n 128 rfl rfl).symm]
  refine Finset.sum_congr rfl fun j _ => ?_
  have hj := contrEquiv1_symm_val dot_S1x128_S128x2_S1x2_1_0_0_1_n_n 128 rfl rfl j
  have el : dot_S1x128_S128x2_S1x2_1_0_0_1_n_n.lhsIdx (ix2 (0 : Fin 1) k)
      ((contrEquiv1 dot_S1x128_S128x2_S1x2_1_0_0_1_n_n 128 rfl rfl).symm j) = ix2 (0 : Fin 1) j := funext fun b => Fin.ext (by
    match b with
    | ⟨0, _⟩ => exact lhs128_0 _ _
    | ⟨1, _⟩ => exact (lhs128_1 _ _).trans hj)
  have er : dot_S1x128_S128x2_S1x2_1_0_0_1_n_n.rhsIdx (ix2 (0 : Fin 1) k)
      ((contrEquiv1 dot_S1x128_S128x2_S1x2_1_0_0_1_n_n 128 rfl rfl).symm j) = ix2 j k := funext fun b => Fin.ext (by
    match b with
    | ⟨0, _⟩ => exact (rhs128_0 _ _).trans hj
    | ⟨1, _⟩ => exact rhs128_1 _ _)
  rw [el, er]

/-! ### The row's maximum and the row's sum, kept as a column and spread back over the row -/

/-- The word the maximum starts from is `-∞`. -/
theorem ofBits_negInf : Ideal.ofBits .f32 0xFF800000#32 = ⊥ := by simp [Ideal.ofBits, Ideal.ieee]

/-- A fold of `max` over two places, from `b`. -/
theorem fold_max_fin2 (b : EReal) (f : Fin 2 → EReal) :
    (Finset.univ : Finset (Fin 2)).fold max b f = max (f 0) (max (f 1) b) := by
  rw [(by decide : (Finset.univ : Finset (Fin 2)) = {0, 1}), Finset.fold_insert (by decide), Finset.fold_singleton]

/-- The maximum over the two entries of a `[1, 2]` row. -/
theorem rowMax_apply (y : FVec Ideal S1x2 .f32) (h : S1x2.Reduces [1] S1) (hφ : FKind.Formats .f32)
    (hacc : (0xFF800000#32 : BitVec 32) = FKind.maximumf.neutral .f32 hφ) :
    multiReduction (F := Ideal) .maximumf [1] S1 y 0xFF800000#32 h hφ hacc (ix1 (0 : Fin 1))
      = max (y (ix2 (0 : Fin 1) (0 : Fin 2))) (y (ix2 (0 : Fin 1) (1 : Fin 2))) := by
  have e0 : h.lift (ix1 (0 : Fin 1)) (0 : Fin 2) = ix2 (0 : Fin 1) (0 : Fin 2) :=
    funext fun a => Fin.ext (by match a with | ⟨0, _⟩ => rfl | ⟨1, _⟩ => rfl)
  have e1 : h.lift (ix1 (0 : Fin 1)) (1 : Fin 2) = ix2 (0 : Fin 1) (1 : Fin 2) :=
    funext fun a => Fin.ext (by match a with | ⟨0, _⟩ => rfl | ⟨1, _⟩ => rfl)
  refine (Ideal.multiReduction_maximumf_single y _ h hφ hacc (ix1 (0 : Fin 1))).trans ?_
  refine (fold_max_fin2 (Ideal.ofBits .f32 0xFF800000#32) (fun k => y (h.lift (ix1 (0 : Fin 1)) k))).trans ?_
  rw [ofBits_negInf, max_bot_right]
  exact congrArg₂ max (congrArg y e0) (congrArg y e1)

/-- The sum over the two entries of a `[1, 2]` row. -/
theorem rowSum_apply (y : FVec Ideal S1x2 .f32) (h : S1x2.Reduces [1] S1) (hφ : FKind.Formats .f32)
    (hacc : (0x00000000#32 : BitVec 32) = FKind.add.neutral .f32 hφ) :
    multiReduction (F := Ideal) .add [1] S1 y 0x00000000#32 h hφ hacc (ix1 (0 : Fin 1))
      = y (ix2 (0 : Fin 1) (0 : Fin 2)) + y (ix2 (0 : Fin 1) (1 : Fin 2)) := by
  have e0 : h.lift (ix1 (0 : Fin 1)) (0 : Fin 2) = ix2 (0 : Fin 1) (0 : Fin 2) :=
    funext fun a => Fin.ext (by match a with | ⟨0, _⟩ => rfl | ⟨1, _⟩ => rfl)
  have e1 : h.lift (ix1 (0 : Fin 1)) (1 : Fin 2) = ix2 (0 : Fin 1) (1 : Fin 2) :=
    funext fun a => Fin.ext (by match a with | ⟨0, _⟩ => rfl | ⟨1, _⟩ => rfl)
  refine (Ideal.multiReduction_add_single y _ h hφ hacc (ix1 (0 : Fin 1))).trans ?_
  refine (Fin.sum_univ_two (fun k : Fin 2 => y (h.lift (ix1 (0 : Fin 1)) k))).trans ?_
  exact congrArg₂ (· + ·) (congrArg y e0) (congrArg y e1)

/-- A `[1]` vector viewed `[1, 1]` and spread over a `[1, 2]` row reads its one entry everywhere. -/
theorem spreadRow_apply (r : FVec Ideal S1 .f32) (hc : S1.ShapeCasts S1x1) (hb : S1x1.Broadcasts S1x2) (k : Fin 2) :
    broadcastTo S1x2 (shapeCast S1x1 r hc) hb (ix2 (0 : Fin 1) k) = r (ix1 (0 : Fin 1)) := by
  refine (broadcastTo_apply (shapeCast S1x1 r hc) hb (ix2 (0 : Fin 1) k) (ix2 (0 : Fin 1) (0 : Fin 1)) (fun a => by
    match a with
    | ⟨0, _⟩ => rfl
    | ⟨1, _⟩ => rfl)).trans ?_
  exact shapeCast_a_1a_apply r hc (0 : Fin 1) (0 : Fin 1)

/-- Entry `(0, o)` of a `[1, 2]` row, cut out as `[1, 1]`, viewed `[1, 1, 1]` and spread over the `[1, 8, 32768]` block, reads
    that entry everywhere. -/
theorem spreadBlock_apply (y : FVec Ideal S1x2 .f32) (o : Fin 2) (hs : S1x2.Slices ![0, o.val] S1x1)
    (hc : S1x1.ShapeCasts S1x1x1) (hb : S1x1x1.Broadcasts S1x8x32768) (g : Fin 8) (l : Fin 32768) :
    broadcastTo S1x8x32768 (shapeCast S1x1x1 (extractStridedSlice S1x1 ![0, o.val] y hs) hc) hb (ix3 (0 : Fin 1) g l)
      = y (ix2 (0 : Fin 1) o) := by
  refine (broadcastTo_apply (shapeCast S1x1x1 (extractStridedSlice S1x1 ![0, o.val] y hs) hc) hb (ix3 (0 : Fin 1) g l)
    (ix3 (0 : Fin 1) (0 : Fin 1) (0 : Fin 1)) (fun a => by
    match a with
    | ⟨0, _⟩ => rfl
    | ⟨1, _⟩ => rfl
    | ⟨2, _⟩ => rfl)).trans ?_
  refine (shapeCast_ab_1ab_apply (extractStridedSlice S1x1 ![0, o.val] y hs) hc (0 : Fin 1) (0 : Fin 1) (0 : Fin 1)).trans ?_
  exact extractStridedSlice_apply ![0, o.val] y hs (ix2 (0 : Fin 1) (0 : Fin 1)) (ix2 (0 : Fin 1) o) (fun a => by
    match a with
    | ⟨0, _⟩ => rfl
    | ⟨1, _⟩ => show o.val = o.val + 0; omega)

/-! ## The point's stages, named, and each read at an index -/

/-- The hidden row the point forms: each stream's eight lane sums times its 8 × 128 weights, the two rows added, scaled
    by 2⁻¹⁶, shifted by the bias row and clipped at zero. -/
def hiddenRow (x0 x1 : FVec Ideal S1x8x32768 .f32) (x2 x3 : FVec Ideal S8x128 .f32) (x4 : FVec Ideal S1x128 .f32) :
    FVec Ideal S1x128 .f32 :=
  maximumf
    (addf
      (mulf (addf (mm8 (laneSums x0) x2) (mm8 (laneSums x1) x3)) (broadcast S1x128 (Scalar.ofBits (F := Ideal) .f32 0x37800000#32)))
      (shapeCast S1x128 x4 shapeCasts_S1x128_S1x128))
    (broadcast S1x128 (Scalar.ofBits (F := Ideal) .f32 0x00000000#32))

/-- Entry `(0, j)` of the hidden row is hidden unit `j`. -/
theorem hiddenRow_apply (x0 x1 : FVec Ideal S1x8x32768 .f32) (x2 x3 : FVec Ideal S8x128 .f32) (x4 : FVec Ideal S1x128 .f32)
    (j : Fin 128) : hiddenRow x0 x1 x2 x3 x4 (ix2 (0 : Fin 1) j) = hiddenOfBlock x0 x1 x2 x3 x4 j := by
  unfold hiddenRow hiddenOfBlock reluOf invArea
  simp only [maximumf_apply, addf_apply, mulf_apply, broadcast_apply, mm8_apply, laneSums_apply, shapeCast_self,
    Ideal.ofBits_def, Ideal.ofBits_zero_f32]

/-- The logits' row: the hidden row times the 128 × 2 weights, plus the bias row. -/
def logitRow (hid : FVec Ideal S1x128 .f32) (x5 : FVec Ideal S128x2 .f32) (x6 : FVec Ideal S1x2 .f32) : FVec Ideal S1x2 .f32 :=
  addf (mm128 hid x5) (shapeCast S1x2 x6 shapeCasts_S1x2_S1x2)

/-- Entry `(0, k)` of the logits' row: `Σ_j hid(0, j) · x5(j, k) + x6(0, k)`. -/
theorem logitRow_apply (hid : FVec Ideal S1x128 .f32) (x5 : FVec Ideal S128x2 .f32) (x6 : FVec Ideal S1x2 .f32) (k : Fin 2) :
    logitRow hid x5 x6 (ix2 (0 : Fin 1) k)
      = (∑ j : Fin 128, hid (ix2 (0 : Fin 1) j) * x5 (ix2 j k)) + x6 (ix2 (0 : Fin 1) k) := by
  unfold logitRow
  simp only [addf_apply, mm128_apply, shapeCast_self]

/-- The row's maximum, the same number at both places of the row. -/
def maxRow (y : FVec Ideal S1x2 .f32) : FVec Ideal S1x2 .f32 :=
  broadcastTo S1x2
    (shapeCast S1x1 (multiReduction (F := Ideal) .maximumf [1] S1 y 0xFF800000#32 reduces_S1x2_S1 (.inl rfl) rfl) shapeCasts_S1_S1x1)
    broadcasts_S1x1_S1x2

/-- Entry `(0, k)` of it: the larger of the two entries. -/
theorem maxRow_apply (y : FVec Ideal S1x2 .f32) (k : Fin 2) :
    maxRow y (ix2 (0 : Fin 1) k) = max (y (ix2 (0 : Fin 1) (0 : Fin 2))) (y (ix2 (0 : Fin 1) (1 : Fin 2))) :=
  (spreadRow_apply _ _ _ k).trans (rowMax_apply y _ _ _)

/-- The exponentials' row: each logit less the row's maximum, exponentiated. -/
def expRow (y : FVec Ideal S1x2 .f32) : FVec Ideal S1x2 .f32 := exp (subf y (maxRow y))

/-- Entry `(0, k)` of the exponentials' row. -/
theorem expRow_apply (y : FVec Ideal S1x2 .f32) (k : Fin 2) :
    expRow y (ix2 (0 : Fin 1) k)
      = Ideal.exp (y (ix2 (0 : Fin 1) k) - max (y (ix2 (0 : Fin 1) (0 : Fin 2))) (y (ix2 (0 : Fin 1) (1 : Fin 2)))) := by
  unfold expRow
  show Ideal.exp (y (ix2 (0 : Fin 1) k) - maxRow y (ix2 (0 : Fin 1) k)) = _
  rw [maxRow_apply]

/-- The row of the exponentials' sum, the same number at both places. -/
def sumRow (e : FVec Ideal S1x2 .f32) : FVec Ideal S1x2 .f32 :=
  broadcastTo S1x2
    (shapeCast S1x1 (multiReduction (F := Ideal) .add [1] S1 e 0x00000000#32 reduces_S1x2_S1 (.inl rfl) rfl) shapeCasts_S1_S1x1)
    broadcasts_S1x1_S1x2

/-- Entry `(0, k)` of it: the two entries added. -/
theorem sumRow_apply (e : FVec Ideal S1x2 .f32) (k : Fin 2) :
    sumRow e (ix2 (0 : Fin 1) k) = e (ix2 (0 : Fin 1) (0 : Fin 2)) + e (ix2 (0 : Fin 1) (1 : Fin 2)) :=
  (spreadRow_apply _ _ _ k).trans (rowSum_apply e _ _ _)

/-- The payload of exponentials is the exponentials' row of the logits' row of the hidden row: the same operations, named. -/
theorem pay2_eq (x0 x1 : FVec Ideal S1x8x32768 .f32) (x2 x3 : FVec Ideal S8x128 .f32) (x4 : FVec Ideal S1x128 .f32)
    (x5 : FVec Ideal S128x2 .f32) (x6 : FVec Ideal S1x2 .f32) :
    k0_pay2 (F := Ideal) x0 x1 x2 x3 x4 x5 x6 = expRow (logitRow (hiddenRow x0 x1 x2 x3 x4) x5 x6) := rfl

/-- The payload of their sum is the sum row of the payload of exponentials. -/
theorem pay3_eq (x0 x1 : FVec Ideal S1x8x32768 .f32) (x2 x3 : FVec Ideal S8x128 .f32) (x4 : FVec Ideal S1x128 .f32)
    (x5 : FVec Ideal S128x2 .f32) (x6 : FVec Ideal S1x2 .f32) :
    k0_pay3 (F := Ideal) x0 x1 x2 x3 x4 x5 x6 = sumRow (k0_pay2 (F := Ideal) x0 x1 x2 x3 x4 x5 x6) := rfl

/-- The stored payload at `(0, g, l)`: each stream's entry times its share, the share the quotient of that place's
    exponential by the sum row there. -/
theorem pay1_apply (e s : FVec Ideal S1x2 .f32) (a b : FVec Ideal S1x8x32768 .f32) (g : Fin 8) (l : Fin 32768) :
    k0_pay1 (F := Ideal) e s a b (ix3 (0 : Fin 1) g l)
      = a (ix3 (0 : Fin 1) g l) * Ideal.div (e (ix2 (0 : Fin 1) (0 : Fin 2))) (s (ix2 (0 : Fin 1) (0 : Fin 2)))
        + b (ix3 (0 : Fin 1) g l) * Ideal.div (e (ix2 (0 : Fin 1) (1 : Fin 2))) (s (ix2 (0 : Fin 1) (1 : Fin 2))) := by
  unfold k0_pay1
  show shapeCast S1x8x32768 a _ (ix3 (0 : Fin 1) g l) * broadcastTo S1x8x32768 _ _ (ix3 (0 : Fin 1) g l)
      + shapeCast S1x8x32768 b _ (ix3 (0 : Fin 1) g l) * broadcastTo S1x8x32768 _ _ (ix3 (0 : Fin 1) g l) = _
  rw [shapeCast_self, shapeCast_self]
  refine congrArg₂ (· + ·) (congrArg (a (ix3 (0 : Fin 1) g l) * ·) ?_) (congrArg (b (ix3 (0 : Fin 1) g l) * ·) ?_)
  · exact spreadBlock_apply (divf e s) (0 : Fin 2) slices_S1x2_o0_0_S1x1 shapeCasts_S1x1_S1x1x1 broadcasts_S1x1x1_S1x8x32768 g l
  · exact spreadBlock_apply (divf e s) (1 : Fin 2) slices_S1x2_o0_1_S1x1 shapeCasts_S1x1_S1x1x1 broadcasts_S1x1x1_S1x8x32768 g l

/-! ## The point's store -/

/-- The offsets of every rectangle the point loads or stores through are zero. -/
theorem hz3 : (![0, 0, 0] : Fin 3 → Nat) = fun _ => 0 := by
  funext a; match a with | ⟨0, _⟩ => rfl | ⟨1, _⟩ => rfl | ⟨2, _⟩ => rfl
/-- The same at rank 2. -/
theorem hz2 : (![0, 0] : Fin 2 → Nat) = fun _ => 0 := by
  funext a; match a with | ⟨0, _⟩ => rfl | ⟨1, _⟩ => rfl

/-- What the point stores at `(0, g, l)`. -/
theorem out_apply (x0 x1 : FVec Ideal S1x8x32768 .f32) (x2 x3 : FVec Ideal S8x128 .f32) (x4 : FVec Ideal S1x128 .f32)
    (x5 : FVec Ideal S128x2 .f32) (x6 : FVec Ideal S1x2 .f32) (g : Fin 8) (l : Fin 32768) :
    out0_7 (F := Ideal) x0 x1 x2 x3 x4 x5 x6 (ix3 (0 : Fin 1) g l)
      = x0 (ix3 (0 : Fin 1) g l)
          * shareOf (hiddenOfBlock x0 x1 x2 x3 x4) (fun k j => x5 (ix2 j k)) (fun k => x6 (ix2 (0 : Fin 1) k)) 0
        + x1 (ix3 (0 : Fin 1) g l)
          * shareOf (hiddenOfBlock x0 x1 x2 x3 x4) (fun k j => x5 (ix2 j k)) (fun k => x6 (ix2 (0 : Fin 1) k)) 1 := by
  -- the one store covers the block from the origin, and every load reads its whole buffer
  unfold out0_7
  rw [View.canon_unit_zero hz3]
  simp only [View.ld_unit_zero (S := S1x8x32768) hz3, View.ld_unit_zero (S := S8x128) hz2, View.ld_unit_zero (S := S1x128) hz2,
    View.ld_unit_zero (S := S128x2) hz2, View.ld_unit_zero (S := S1x2) hz2]
  -- the stored payload at the index, then each row it is made of at its two places
  rw [pay1_apply, pay3_eq, pay2_eq]
  simp only [sumRow_apply, expRow_apply, logitRow_apply, hiddenRow_apply]
  -- both sides are now the same quotients of exponentials of the logits less their maximum
  rfl

end Cert.ReferenceIdeal.BlendBlock

end
-- ==== Proof.RefArrays.lean ====
/-
  The arrays the folded program's region finds, each read at an index in terms of the program's arguments.

  Before the region the program re-lays its arguments: each stream `[16, 4, 256, 256]` is reshaped to
  `[16, 8, 32768]` (entry `(n, f, l)` is entry `(n, f / 2, (f % 2) · 128 + l / 256, l % 256)`); the first-layer
  weights `[128, 8]` are transposed, cut into the two streams' four rows, and each row doubled (row `g` of
  a stream's `[8, 128]` table is column `g / 2`, resp. `4 + g / 2`, of the weights); the biases become rows;
  the second-layer weights are transposed.
-/
import proofs.«102807_g2000206893809932_pallasbulk_434_14_alg».proof.Proof.Gen.ReferenceIdeal.Frame
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.ReferenceIdeal.BlendArrays

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ)

/-! ## The re-layings read at an index, over any array -/

section Layout
variable {α : Type}

/-- Folding `[16, 4, 256, 256]` to `[16, 8, 32768]`: entry `(n, f, l)` is entry
    `(n, f / 2, (f % 2) · 128 + l / 256, l % 256)`, both at row-major position `(n · 8 + f) · 32768 + l`. -/
theorem fold_apply (x : S16x4x256x256.Idx → α) (h : S16x4x256x256.ShapeCasts S16x8x32768)
    (n : Fin 16) (f : Fin 8) (l : Fin 32768) :
    shapeCast S16x8x32768 x h (ix3 n f l)
      = x (ix4 n (⟨f.val / 2, by have := f.isLt; omega⟩ : Fin 4)
            (⟨(f.val % 2) * 128 + l.val / 256, by have := l.isLt; omega⟩ : Fin 256) (⟨l.val % 256, by omega⟩ : Fin 256)) :=
  shapeCast_apply x h _ _ (by
    rw [Shape.rowMajor_val_four, Shape.rowMajor_val_three]
    show ((n.val * 4 + f.val / 2) * 256 + ((f.val % 2) * 128 + l.val / 256)) * 256 + l.val % 256
        = (n.val * 8 + f.val) * 32768 + l.val
    have := f.isLt
    have := l.isLt
    omega)

/-- Doubling the rows of a `[4, 128]` table: `[4, 128]` spread to `[4, 2, 128]` along a new middle axis and
    flattened to `[8, 128]` puts `(p, q, j)` at row `2p + q`, so row `g` is row `g / 2` of the table. -/
theorem doubled_apply (x : S4x128.Idx → α) (hb : S4x128.BroadcastsInDim S4x2x128 (![0, 2] : Fin 2 → Fin S4x2x128.rank))
    (hc : S4x2x128.ShapeCasts S8x128) (g : Fin 8) (j : Fin 128) :
    shapeCast S8x128 (broadcastInDim S4x2x128 ![0, 2] hb x) hc (ix2 g j)
      = x (ix2 (⟨g.val / 2, by have := g.isLt; omega⟩ : Fin 4) j) := by
  refine (shapeCast_apply _ hc (ix2 g j)
    (ix3 (⟨g.val / 2, by have := g.isLt; omega⟩ : Fin 4) (⟨g.val % 2, by omega⟩ : Fin 2) j) (by
      rw [Shape.rowMajor_val_three, Shape.rowMajor_val_two]
      show ((g.val / 2) * 2 + g.val % 2) * 128 + j.val = g.val * 128 + j.val
      omega)).trans ?_
  exact broadcastInDim_apply _ hb x _ _ fun a => match a with
    | ⟨0, _⟩ => rfl
    | ⟨1, _⟩ => rfl

/-- Rows `o .. o + 4` of an `[8, 128]` table. -/
theorem rows_apply (o : ℕ) (x : S8x128.Idx → α) (h : S8x128.Slices ![o, 0] S4x128) (p : Fin 4) (j : Fin 128) (ho : o + p.val < 8) :
    extractStridedSlice S4x128 ![o, 0] x h (ix2 p j) = x (ix2 (⟨o + p.val, ho⟩ : Fin 8) j) :=
  extractStridedSlice_apply _ x h _ _ fun a => match a with
    | ⟨0, _⟩ => rfl
    | ⟨1, _⟩ => (Nat.zero_add _).symm

end Layout

/-! ## The arrays as the operations' terms of the arguments -/

theorem v0_eq (c : Dev nD) :
    (V m c main_v0 : S16x8x32768.Idx → EReal)
      = shapeCast S16x8x32768 (m ((c : Thread nD τ).loc main_arg0) : S16x4x256x256.Idx → EReal) shapeCasts_S16x4x256x256_S16x8x32768 := by
  show StableHlo.after hostOps0 (fun b => m (c, b)) (Proc.devRef .tc main_v0) = _
  after_results
  rfl

theorem v1_eq (c : Dev nD) :
    (V m c main_v1 : S16x8x32768.Idx → EReal)
      = shapeCast S16x8x32768 (m ((c : Thread nD τ).loc main_arg1) : S16x4x256x256.Idx → EReal) shapeCasts_S16x4x256x256_S16x8x32768 := by
  show StableHlo.after hostOps0 (fun b => m (c, b)) (Proc.devRef .tc main_v1) = _
  after_results
  rfl

theorem v5_eq (c : Dev nD) :
    (V m c main_v5 : S8x128.Idx → EReal)
      = shapeCast S8x128 (broadcastInDim S4x2x128 ![0, 2] bcast_S4x128_S4x2x128_0_2
          (extractStridedSlice S4x128 ![0, 0]
            (transpose S8x128 [1, 0] (m ((c : Thread nD τ).loc main_arg2) : S128x8.Idx → EReal) transposes_S128x8_S8x128_1_0)
            slices_S8x128_S4x128_0_0)) shapeCasts_S4x2x128_S8x128 := by
  show StableHlo.after hostOps0 (fun b => m (c, b)) (Proc.devRef .tc main_v5) = _
  after_results
  rfl

theorem v8_eq (c : Dev nD) :
    (V m c main_v8 : S8x128.Idx → EReal)
      = shapeCast S8x128 (broadcastInDim S4x2x128 ![0, 2] bcast_S4x128_S4x2x128_0_2
          (extractStridedSlice S4x128 ![4, 0]
            (transpose S8x128 [1, 0] (m ((c : Thread nD τ).loc main_arg2) : S128x8.Idx → EReal) transposes_S128x8_S8x128_1_0)
            slices_S8x128_S4x128_4_0)) shapeCasts_S4x2x128_S8x128 := by
  show StableHlo.after hostOps0 (fun b => m (c, b)) (Proc.devRef .tc main_v8) = _
  after_results
  rfl

theorem v9_eq (c : Dev nD) :
    (V m c main_v9 : S1x128.Idx → EReal)
      = shapeCast S1x128 (m ((c : Thread nD τ).loc main_arg3) : S128.Idx → EReal) shapeCasts_S128_S1x128 := by
  show StableHlo.after hostOps0 (fun b => m (c, b)) (Proc.devRef .tc main_v9) = _
  after_results
  rfl

theorem v10_eq (c : Dev nD) :
    (V m c main_v10 : S128x2.Idx → EReal)
      = transpose S128x2 [1, 0] (m ((c : Thread nD τ).loc main_arg4) : S2x128.Idx → EReal) transposes_S2x128_S128x2_1_0 := by
  show StableHlo.after hostOps0 (fun b => m (c, b)) (Proc.devRef .tc main_v10) = _
  after_results

theorem v11_eq (c : Dev nD) :
    (V m c main_v11 : S1x2.Idx → EReal)
      = shapeCast S1x2 (m ((c : Thread nD τ).loc main_arg5) : S2.Idx → EReal) shapeCasts_S2_S1x2 := by
  show StableHlo.after hostOps0 (fun b => m (c, b)) (Proc.devRef .tc main_v11) = _
  after_results
  rfl

/-! ## The seven arrays read at an index -/

/-- The first stream, folded. -/
theorem folded_rgb (c : Dev nD) (n : Fin 16) (f : Fin 8) (l : Fin 32768) :
    (V m c main_v0 : S16x8x32768.Idx → EReal) (ix3 n f l)
      = (m ((c : Thread nD τ).loc main_arg0) : S16x4x256x256.Idx → EReal)
          (ix4 n (⟨f.val / 2, by have := f.isLt; omega⟩ : Fin 4)
            (⟨(f.val % 2) * 128 + l.val / 256, by have := l.isLt; omega⟩ : Fin 256) (⟨l.val % 256, by omega⟩ : Fin 256)) := by
  rw [v0_eq m c]
  exact fold_apply _ _ n f l

/-- The second stream, folded. -/
theorem folded_hha (c : Dev nD) (n : Fin 16) (f : Fin 8) (l : Fin 32768) :
    (V m c main_v1 : S16x8x32768.Idx → EReal) (ix3 n f l)
      = (m ((c : Thread nD τ).loc main_arg1) : S16x4x256x256.Idx → EReal)
          (ix4 n (⟨f.val / 2, by have := f.isLt; omega⟩ : Fin 4)
            (⟨(f.val % 2) * 128 + l.val / 256, by have := l.isLt; omega⟩ : Fin 256) (⟨l.val % 256, by omega⟩ : Fin 256)) := by
  rw [v1_eq m c]
  exact fold_apply _ _ n f l

/-- The first stream's weight rows, doubled. -/
theorem doubled_rgb_rows (c : Dev nD) (g : Fin 8) (j : Fin 128) :
    (V m c main_v5 : S8x128.Idx → EReal) (ix2 g j)
      = (m ((c : Thread nD τ).loc main_arg2) : S128x8.Idx → EReal) (ix2 j (⟨g.val / 2, by have := g.isLt; omega⟩ : Fin 8)) := by
  have hg := g.isLt
  rw [v5_eq m c]
  refine (doubled_apply _ _ _ g j).trans ?_
  refine (rows_apply 0 _ _ _ j (by show 0 + g.val / 2 < 8; omega)).trans ?_
  refine (transpose_ix2_apply _ _ _ j).trans ?_
  exact congrArg _ (congrArg (ix2 j) (Fin.ext (Nat.zero_add _)))

/-- The second stream's weight rows, doubled. -/
theorem doubled_hha_rows (c : Dev nD) (g : Fin 8) (j : Fin 128) :
    (V m c main_v8 : S8x128.Idx → EReal) (ix2 g j)
      = (m ((c : Thread nD τ).loc main_arg2) : S128x8.Idx → EReal) (ix2 j (⟨4 + g.val / 2, by have := g.isLt; omega⟩ : Fin 8)) := by
  have hg := g.isLt
  rw [v8_eq m c]
  refine (doubled_apply _ _ _ g j).trans ?_
  refine (rows_apply 4 _ _ _ j (by show 4 + g.val / 2 < 8; omega)).trans ?_
  exact transpose_ix2_apply _ _ _ j

/-- The first layer's biases as a row. -/
theorem bias1_row (c : Dev nD) (j : Fin 128) :
    (V m c main_v9 : S1x128.Idx → EReal) (ix2 (0 : Fin 1) j)
      = (m ((c : Thread nD τ).loc main_arg3) : S128.Idx → EReal) (ix1 j) := by
  rw [v9_eq m c]
  exact shapeCast_a_1a_apply _ _ (0 : Fin 1) j

/-- The second layer's weights, transposed. -/
theorem weights2_transposed (c : Dev nD) (j : Fin 128) (k : Fin 2) :
    (V m c main_v10 : S128x2.Idx → EReal) (ix2 j k)
      = (m ((c : Thread nD τ).loc main_arg4) : S2x128.Idx → EReal) (ix2 k j) := by
  rw [v10_eq m c]
  exact transpose_ix2_apply _ _ j k

/-- The second layer's biases as a row. -/
theorem bias2_row (c : Dev nD) (k : Fin 2) :
    (V m c main_v11 : S1x2.Idx → EReal) (ix2 (0 : Fin 1) k)
      = (m ((c : Thread nD τ).loc main_arg5) : S2.Idx → EReal) (ix1 k) := by
  rw [v11_eq m c]
  exact shapeCast_a_1a_apply _ _ (0 : Fin 1) k

end Cert.ReferenceIdeal.BlendArrays

end
-- ==== Proof.RefValue.lean ====
/-
  What the folded program leaves in its result array: the blend with the softmax shares.

  Grid point `n` holds sample `n` as 8 half-channels of 32768 entries. Its block of the region's output is the
  blend of the two folded streams with the shares of the sample's hidden vector; the sixteen blocks tile
  the folded output, and the reshape after the region reads entry `(n, c, h, w)` of the result at entry
  `(n, 2c + h / 128, (h % 128) · 256 + w)` of it, which is where the folding before the region put the
  arguments' entry `(n, c, h, w)`. So the result array is `blendByShare` of the argument arrays.
-/
import proofs.«102807_g2000206893809932_pallasbulk_434_14_alg».proof.Proof.RefBlock
import proofs.«102807_g2000206893809932_pallasbulk_434_14_alg».proof.Proof.RefArrays
import proofs.«102807_g2000206893809932_pallasbulk_434_14_alg».proof.Proof.GatedBlend
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.ReferenceIdeal.BlendValue

open Cert.ReferenceIdeal Cert.ReferenceIdeal.Gen Idealize.ShloMosaic Idealize.ShloMosaic.TcCoe Idealize.ShloMosaic.ValueIdx Idealize.SL.Sem Cert.GatedBlend
open Cert.ReferenceIdeal.BlendBlock Cert.ReferenceIdeal.BlendArrays

variable (m : (ℓ : Loc nD τ sig) → Buf (Elt Ideal) ℓ) (ρ : Dev nD → PrngReg)

/-- The grid has sixteen points: a point is a sample. -/
theorem lt16 (t : Fin cfg0.N) : t.val < 16 := by have h := t.isLt; have e : cfg0.N = 16 := N_0; omega

/-- The sample a grid point holds. -/
abbrev sampleOf (t : Fin cfg0.N) : Fin 16 := ⟨t.val, lt16 t⟩

/-- The windows' index maps over the grid: the two streams' windows and the output's window sit at block
    `(t, 0, 0)`, the five parameter windows at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- Point `t`'s block of the first folded stream is row `t` of it: entry `(0, f, l)` of the block is entry
    `(t, f, l)` of the array. -/
theorem blk_rgb (c : Dev nD) (t : Fin cfg0.N) (f : Fin 8) (l : Fin 32768) :
    (iblk m c 0 t : S1x8x32768.Idx → EReal) (ix3 (0 : Fin 1) f l)
      = (V m c main_v0 : S16x8x32768.Idx → EReal) (ix3 (sampleOf t) f l) := by
  obtain ⟨e0, e1, e2, -⟩ := idx_facts t
  unfold iblk
  show V m c main_v0 (((cfg0.win 0).blk t).view.emb (ix3 (0 : Fin 1) f l)) = _
  refine congrArg (V m c main_v0) ?_
  funext a; apply Fin.ext
  match a with
  | ⟨0, _⟩ => show win0_0.index t (0 : Fin 3) * 1 + 1 * 0 = t.val; omega
  | ⟨1, _⟩ => show win0_0.index t (1 : Fin 3) * 8 + 1 * f.val = f.val; omega
  | ⟨2, _⟩ => show win0_0.index t (2 : Fin 3) * 32768 + 1 * l.val = l.val; omega

/-- The same for the second folded stream. -/
theorem blk_hha (c : Dev nD) (t : Fin cfg0.N) (f : Fin 8) (l : Fin 32768) :
    (iblk m c 1 t : S1x8x32768.Idx → EReal) (ix3 (0 : Fin 1) f l)
      = (V m c main_v1 : S16x8x32768.Idx → EReal) (ix3 (sampleOf t) f l) := by
  obtain ⟨-, -, -, e0, e1, e2, -⟩ := idx_facts t
  unfold iblk
  show V m c main_v1 (((cfg0.win 1).blk t).view.emb (ix3 (0 : Fin 1) f l)) = _
  refine congrArg (V m c main_v1) ?_
  funext a; apply Fin.ext
  match a with
  | ⟨0, _⟩ => show win0_1.index t (0 : Fin 3) * 1 + 1 * 0 = t.val; omega
  | ⟨1, _⟩ => show win0_1.index t (1 : Fin 3) * 8 + 1 * f.val = f.val; omega
  | ⟨2, _⟩ => show win0_1.index t (2 : Fin 3) * 32768 + 1 * l.val = l.val; omega

/-- A parameter window's block is its whole array at every point: the first stream's doubled weight rows, -/
theorem blk_rows_rgb (c : Dev nD) (t : Fin cfg0.N) (g : Fin 8) (j : Fin 128) :
    (iblk m c 2 t : S8x128.Idx → EReal) (ix2 g j) = (V m c main_v5 : S8x128.Idx → EReal) (ix2 g j) := by
  obtain ⟨-, -, -, -, -, -, e0, e1, -⟩ := idx_facts t
  unfold iblk
  show V m c main_v5 (((cfg0.win 2).blk t).view.emb (ix2 g j)) = _
  refine congrArg (V m c main_v5) ?_
  funext a; apply Fin.ext
  match a with
  | ⟨0, _⟩ => show win0_2.index t (0 : Fin 2) * 8 + 1 * g.val = g.val; omega
  | ⟨1, _⟩ => show win0_2.index t (1 : Fin 2) * 128 + 1 * j.val = j.val; omega

/-- the second stream's doubled weight rows, -/
theorem blk_rows_hha (c : Dev nD) (t : Fin cfg0.N) (g : Fin 8) (j : Fin 128) :
    (iblk m c 3 t : S8x128.Idx → EReal) (ix2 g j) = (V m c main_v8 : S8x128.Idx → EReal) (ix2 g j) := by
  obtain ⟨-, -, -, -, -, -, -, -, e0, e1, -⟩ := idx_facts t
  unfold iblk
  show V m c main_v8 (((cfg0.win 3).blk t).view.emb (ix2 g j)) = _
  refine congrArg (V m c main_v8) ?_
  funext a; apply Fin.ext
  match a with
  | ⟨0, _⟩ => show win0_3.index t (0 : Fin 2) * 8 + 1 * g.val = g.val; omega
  | ⟨1, _⟩ => show win0_3.index t (1 : Fin 2) * 128 + 1 * j.val = j.val; omega

/-- the first layer's bias row, -/
theorem blk_bias1 (c : Dev nD) (t : Fin cfg0.N) (j : Fin 128) :
    (iblk m c 4 t : S1x128.Idx → EReal) (ix2 (0 : Fin 1) j) = (V m c main_v9 : S1x128.Idx → EReal) (ix2 (0 : Fin 1) j) := by
  obtain ⟨-, -, -, -, -, -, -, -, -, -, e0, e1, -⟩ := idx_facts t
  unfold iblk
  show V m c main_v9 (((cfg0.win 4).blk t).view.emb (ix2 (0 : Fin 1) j)) = _
  refine congrArg (V m c main_v9) ?_
  funext a; apply Fin.ext
  match a with
  | ⟨0, _⟩ => show win0_4.index t (0 : Fin 2) * 1 + 1 * 0 = 0; omega
  | ⟨1, _⟩ => show win0_4.index t (1 : Fin 2) * 128 + 1 * j.val = j.val; omega

/-- the second layer's transposed weights, -/
theorem blk_weights2 (c : Dev nD) (t : Fin cfg0.N) (j : Fin 128) (k : Fin 2) :
    (iblk m c 5 t : S128x2.Idx → EReal) (ix2 j k) = (V m c main_v10 : S128x2.Idx → EReal) (ix2 j k) := by
  obtain ⟨-, -, -, -, -, -, -, -, -, -, -, -, e0, e1, -⟩ := idx_facts t
  unfold iblk
  show V m c main_v10 (((cfg0.win 5).blk t).view.emb (ix2 j k)) = _
  refine congrArg (V m c main_v10) ?_
  funext a; apply Fin.ext
  match a with
  | ⟨0, _⟩ => show win0_5.index t (0 : Fin 2) * 128 + 1 * j.val = j.val; omega
  | ⟨1, _⟩ => show win0_5.index t (1 : Fin 2) * 2 + 1 * k.val = k.val; omega

/-- and the second layer's bias row. -/
theorem blk_bias2 (c : Dev nD) (t : Fin cfg0.N) (k : Fin 2) :
    (iblk m c 6 t : S1x2.Idx → EReal) (ix2 (0 : Fin 1) k) = (V m c main_v11 : S1x2.Idx → EReal) (ix2 (0 : Fin 1) k) := by
  obtain ⟨-, -, -, -, -, -, -, -, -, -, -, -, -, -, e0, e1, -⟩ := idx_facts t
  unfold iblk
  show V m c main_v11 (((cfg0.win 6).blk t).view.emb (ix2 (0 : Fin 1) k)) = _
  refine congrArg (V m c main_v11) ?_
  funext a; apply Fin.ext
  match a with
  | ⟨0, _⟩ => show win0_6.index t (0 : Fin 2) * 1 + 1 * 0 = 0; omega
  | ⟨1, _⟩ => show win0_6.index t (1 : Fin 2) * 2 + 1 * k.val = k.val; omega

/-- One grid point over literal blocks: if the point's seven blocks hold sample `n`'s folded streams and
    the re-laid parameters, the entry `(0, g, l)` it stores is the blend by shares at the entry of the
    images that the folding put there. The hidden vector of the block is the sample's, sum by sum. -/
theorem point_value (rgb hha : Img.Idx → EReal) (w1 : W1.Idx → EReal) (b1 : B1.Idx → EReal) (w2 : W2.Idx → EReal)
    (b2 : B2.Idx → EReal) (n : Fin 16)
    (x0 x1 : FVec Ideal S1x8x32768 .f32) (x2 x3 : FVec Ideal S8x128 .f32) (x4 : FVec Ideal S1x128 .f32)
    (x5 : FVec Ideal S128x2 .f32) (x6 : FVec Ideal S1x2 .f32)
    (h0 : ∀ (f : Fin 8) (l : Fin 32768), x0 (ix3 (0 : Fin 1) f l)
      = rgb (ix4 n (⟨f.val / 2, by have := f.isLt; omega⟩ : Fin 4)
          (⟨(f.val % 2) * 128 + l.val / 256, by have := l.isLt; omega⟩ : Fin 256) (⟨l.val % 256, by omega⟩ : Fin 256)))
    (h1 : ∀ (f : Fin 8) (l : Fin 32768), x1 (ix3 (0 : Fin 1) f l)
      = hha (ix4 n (⟨f.val / 2, by have := f.isLt; omega⟩ : Fin 4)
          (⟨(f.val % 2) * 128 + l.val / 256, by have := l.isLt; omega⟩ : Fin 256) (⟨l.val % 256, by omega⟩ : Fin 256)))
    (h2 : ∀ (g : Fin 8) (j : Fin 128), x2 (ix2 g j) = w1 (ix2 j (⟨g.val / 2, by have := g.isLt; omega⟩ : Fin 8)))
    (h3 : ∀ (g : Fin 8) (j : Fin 128), x3 (ix2 g j) = w1 (ix2 j (⟨4 + g.val / 2, by have := g.isLt; omega⟩ : Fin 8)))
    (h4 : ∀ j : Fin 128, x4 (ix2 (0 : Fin 1) j) = b1 (ix1 j))
    (h5 : ∀ (j : Fin 128) (k : Fin 2), x5 (ix2 j k) = w2 (ix2 k j))
    (h6 : ∀ k : Fin 2, x6 (ix2 (0 : Fin 1) k) = b2 (ix1 k))
    (g : Fin 8) (l : Fin 32768) :
    out0_7 (F := Ideal) x0 x1 x2 x3 x4 x5 x6 (ix3 (0 : Fin 1) g l)
      = blendByShare rgb hha w1 b1 w2 b2 (ix4 n (⟨g.val / 2, by have := g.isLt; omega⟩ : Fin 4)
          (⟨(g.val % 2) * 128 + l.val / 256, by have := l.isLt; omega⟩ : Fin 256) (⟨l.val % 256, by omega⟩ : Fin 256)) := by
  have hh : hiddenOfBlock x0 x1 x2 x3 x4 = hiddenByHalf rgb hha w1 b1 n := by
    funext j
    unfold hiddenOfBlock hiddenByHalf halfSum
    simp only [h0, h1, h2, h3, h4]
  have hu : (fun (k : Fin 2) (j : Fin 128) => x5 (ix2 j k)) = w2At w2 := by
    funext k j; exact h5 j k
  have hv : (fun k : Fin 2 => x6 (ix2 (0 : Fin 1) k)) = b2At b2 := by
    funext k; exact h6 k
  rw [out_apply, hh, hu, hv, h0, h1]
  rfl

/-- The region's output array: entry `(n, f, l)` of the folded output is the blend by shares at the entry of
    the images that half-channel `f`, position `l` folds. -/
def foldedBlend (c : Dev nD) : S16x8x32768.Idx → EReal := fun i =>
  blendByShare (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (ix4 (i 0) (⟨(i 1).val / 2, by have h : (i 1).val < 8 := (i 1).isLt; omega⟩ : Fin 4)
      (⟨((i 1).val % 2) * 128 + (i 2).val / 256, by have h : (i 2).val < 32768 := (i 2).isLt; omega⟩ : Fin 256)
      (⟨(i 2).val % 256, by omega⟩ : Fin 256))

/-- What point `t` writes back is block `t` of the folded blend. -/
theorem flushed_eq (c : Dev nD) (t : Fin cfg0.N) :
    (dats m 0 c).flushed 7 t = ((cfg0.win 7).blk t).view.read (Elt Ideal) (foldedBlend m c) := by
  show (cfg0.win 7).cut (grid0.coords t) ((dats m 0 c).after 7 t) = _
  rw [after0_7]
  show (fun y : S1x8x32768.Idx => out0_7 (F := Ideal) (iblk m c 0 t) (iblk m c 1 t) (iblk m c 2 t) (iblk m c 3 t)
      (iblk m c 4 t) (iblk m c 5 t) (iblk m c 6 t) y)
    = fun y : S1x8x32768.Idx => foldedBlend m c (((cfg0.win 7).blk t).view.emb y)
  funext y
  obtain ⟨g, l, rfl⟩ : ∃ (g : Fin 8) (l : Fin 32768), y = ix3 (0 : Fin 1) g l :=
    ⟨y 1, y 2, funext fun a => by
      match a with
      | ⟨0, _⟩ => apply Fin.ext; show (y 0).val = 0; have h : (y 0).val < 1 := (y 0).isLt; omega
      | ⟨1, _⟩ => rfl
      | ⟨2, _⟩ => rfl⟩
  refine (point_value (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (sampleOf t)
    (iblk m c 0 t) (iblk m c 1 t) (iblk m c 2 t) (iblk m c 3 t) (iblk m c 4 t) (iblk m c 5 t) (iblk m c 6 t)
    (fun f l => (blk_rgb m c t f l).trans (folded_rgb m c (sampleOf t) f l))
    (fun f l => (blk_hha m c t f l).trans (folded_hha m c (sampleOf t) f l))
    (fun g j => (blk_rows_rgb m c t g j).trans (doubled_rgb_rows m c g j))
    (fun g j => (blk_rows_hha m c t g j).trans (doubled_hha_rows m c g j))
    (fun j => (blk_bias1 m c t j).trans (bias1_row m c j))
    (fun j k => (blk_weights2 m c t j k).trans (weights2_transposed m c j k))
    (fun k => (blk_bias2 m c t k).trans (bias2_row m c k)) g l).trans ?_
  obtain ⟨-, -, -, -, -, -, -, -, -, -, -, -, -, -, -, -, e0, e1, e2⟩ := idx_facts t
  have he : ((cfg0.win 7).blk t).view.emb (ix3 (0 : Fin 1) g l) = (ix3 (sampleOf t) g l : S16x8x32768.Idx) := by
    funext a; apply Fin.ext
    match a with
    | ⟨0, _⟩ => show win0_7.index t (0 : Fin 3) * 1 + 1 * 0 = t.val; omega
    | ⟨1, _⟩ => show win0_7.index t (1 : Fin 3) * 8 + 1 * g.val = g.val; omega
    | ⟨2, _⟩ => show win0_7.index t (2 : Fin 3) * 32768 + 1 * l.val = l.val; omega
  rw [he]
  rfl

/-- An index of the folded output lies in point `t`'s block iff each coordinate lies in the block's range. -/
theorem mem_blk (t : Fin cfg0.N) (i : S16x8x32768.Idx) :
    i ∈ ((cfg0.win 7).blk t).view.set ↔ ∀ a : Fin 3, win0_7.index t a * S1x8x32768.size a ≤ (i a).val
      ∧ (i a).val < win0_7.index t a * S1x8x32768.size a + S1x8x32768.size a := by
  show i ∈ ((View.whole main_v12).slice (win0_7.rect t)).set ↔ _
  rw [View.set_slice_whole, Rect.mem_set_unit]
  exact Iff.rfl

/-- Row `n` of the folded output is covered by point `n`: the sixteen blocks tile it. -/
theorem covered (i : S16x8x32768.Idx) :
    ∃ t : Fin cfg0.N, (cfg0.win 7).flush t = true ∧ i ∈ ((cfg0.win 7).blk t).view.set := by
  have hi0 : (i 0).val < 16 := (i 0).isLt
  have hi1 : (i 1).val < 8 := (i 1).isLt
  have hi2 : (i 2).val < 32768 := (i 2).isLt
  have hN : cfg0.N = 16 := N_0
  obtain ⟨t, ht⟩ : ∃ t : Fin cfg0.N, t.val = (i 0).val := ⟨⟨(i 0).val, by omega⟩, rfl⟩
  refine ⟨t, flush0_7 t, ?_⟩
  rw [mem_blk]
  obtain ⟨-, -, -, -, -, -, -, -, -, -, -, -, -, -, -, -, e0, e1, e2⟩ := idx_facts t
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 8 ≤ (i 1).val ∧ (i 1).val < win0_7.index t (1 : Fin 3) * 8 + 8
    omega
  | ⟨2, _⟩ =>
    show win0_7.index t (2 : Fin 3) * 32768 ≤ (i 2).val ∧ (i 2).val < win0_7.index t (2 : Fin 3) * 32768 + 32768
    omega

/-- The region's output array after the run is the folded blend. -/
theorem final (c : Dev nD) : (dats m 0 c).arrAt 7 cfg0.N = foldedBlend m c :=
  (dats m 0 c).arrAt_eq_of_cover 7 (foldedBlend m c) (fun t _ => flushed_eq m c t) covered

/-- The reshape after the region unfolds the folded blend: entry `(n, c, h, w)` of the result is entry
    `(n, 2c + h / 128, (h % 128) · 256 + w)` of the folded output (the same row-major position), and folding
    that entry back gives `(n, c, h, w)`. -/
theorem tail_eq (c : Dev nD) :
    Pipeline.afterTail₀ cfgs (dats m) 0 (V0 m) [hostOps1] c main_v13
      = blendByShare (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v13) = _
  after_results
  have hw : Pipeline.withArrays (cfgs 0).spec c (V0 m c) (fun w => (dats m 0 c).arrAt w (cfgs 0).N)
      (Proc.devRef .tc main_v12) = foldedBlend m c :=
    (Pipeline.withArrays_arr spec0 launch0.win.arr_inj c _ _ 7).trans (final m c)
  rw [hw]
  funext i
  obtain ⟨n, ch, h, w, rfl⟩ : ∃ (n : Fin 16) (ch : Fin 4) (h w : Fin 256), i = ix4 n ch h w :=
    ⟨i 0, i 1, i 2, i 3, eq_ix4 i⟩
  show shapeCast S16x4x256x256 (foldedBlend m c) shapeCasts_S16x8x32768_S16x4x256x256 (ix4 n ch h w) = _
  have hn := n.isLt; have hch := ch.isLt; have hh := h.isLt; have hw' := w.isLt
  refine (shapeCast_apply (foldedBlend m c) shapeCasts_S16x8x32768_S16x4x256x256 (ix4 n ch h w)
    (ix3 n (⟨2 * ch.val + h.val / 128, by omega⟩ : Fin 8) (⟨(h.val % 128) * 256 + w.val, by omega⟩ : Fin 32768)) ?_).trans ?_
  · rw [Shape.rowMajor_val_three, Shape.rowMajor_val_four]
    show ((n.val * 8 + (2 * ch.val + h.val / 128)) * 32768 + ((h.val % 128) * 256 + w.val))
      = (((n.val * 4 + ch.val) * 256 + h.val) * 256 + w.val)
    omega
  · unfold foldedBlend
    refine congrArg _ ?_
    funext a
    match a with
    | ⟨0, _⟩ => rfl
    | ⟨1, _⟩ => apply Fin.ext; show (2 * ch.val + h.val / 128) / 2 = ch.val; omega
    | ⟨2, _⟩ => apply Fin.ext; show ((2 * ch.val + h.val / 128) % 2) * 128 + ((h.val % 128) * 256 + w.val) / 256 = h.val; omega
    | ⟨3, _⟩ => apply Fin.ext; show ((h.val % 128) * 256 + w.val) % 256 = w.val; omega

/-- The program's run: the result array is the blend by shares of the arguments, which are unchanged. The
    result array and the arguments are no array of the region: the run leaves the first as the reshape after
    the region computes it from the region's output, and the others as launched. -/
theorem run : θ_run (defs (F := Ideal)) (onTc (τ := τ) (main (F := Ideal))) ⟨m, fun _ => 0, ρ⟩ fun r => ∀ c : Dev nD,
      r.2.mem ((c : Thread nD τ).loc main_v13)
        = blendByShare (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ReferenceIdeal.BlendValue

end
-- ==== Proof.PoolFold.lean ====
/-
  A channel's sum is the sum of its two half-channels' sums.

  Half `e` of channel `c` is rows `128e … 128e + 127`, read as 32768 contiguous entries: entry `l` is row
  `128e + l / 256`, column `l % 256`. Splitting `l` into `(l / 256, l % 256)` turns a half's sum into 128 row
  sums, and the 256 rows are the first 128 followed by the last 128. Sums over the extended reals
  commute and re-associate freely, so nothing here needs the entries to be finite.
-/
import proofs.«102807_g2000206893809932_pallasbulk_434_14_alg».proof.Proof.GatedBlend
import Mathlib.Algebra.BigOperators.Fin
import Mathlib.Data.Fintype.BigOperators
import Mathlib.Logic.Equiv.Fin.Basic

noncomputable section

open scoped BigOperators

namespace Cert.GatedBlend

open Idealize.ShloMosaic Idealize.ShloMosaic.ValueIdx

/-- A sum over `m * n` contiguous entries is the sum over `m` rows of `n` entries: entry `l` lies in row
    `l / n`, column `l % n`. -/
theorem sum_divMod {m n : ℕ} (g : Fin m → Fin n → EReal) :
    ∑ l : Fin (m * n), g l.divNat l.modNat = ∑ a : Fin m, ∑ b : Fin n, g a b := by
  rw [← Fintype.sum_prod_type']
  exact Equiv.sum_comp finProdFinEquiv.symm (fun p : Fin m × Fin n => g p.1 p.2)

/-- The same for 32768 = 128 · 256 entries, with the row and the column written out. -/
theorem sum_rows (g : Fin 128 → Fin 256 → EReal) :
    ∑ l : Fin 32768, g (⟨l.val / 256, by have := l.isLt; omega⟩ : Fin 128) (⟨l.val % 256, by omega⟩ : Fin 256)
      = ∑ a : Fin 128, ∑ b : Fin 256, g a b :=
  sum_divMod (m := 128) (n := 256) g

/-- The lower half of channel `c` is its first 128 rows. -/
theorem halfSum_even (x : Img.Idx → EReal) (n : Fin 16) (c : Fin 4) :
    halfSum x n (⟨2 * c.val, by have := c.isLt; omega⟩ : Fin 8)
      = ∑ a : Fin 128, ∑ b : Fin 256, x (ix4 n c (Fin.castAdd 128 a) b) := by
  refine Eq.trans ?_ (sum_rows (fun a b => x (ix4 n c (Fin.castAdd 128 a) b)))
  unfold halfSum
  refine Finset.sum_congr rfl (fun l _ => ?_)
  have hc : (⟨2 * c.val / 2, by have := c.isLt; omega⟩ : Fin 4) = c := Fin.ext (by simp)
  have hr : (⟨(2 * c.val % 2) * 128 + l.val / 256, by have := l.isLt; omega⟩ : Fin 256)
      = Fin.castAdd 128 (⟨l.val / 256, by have := l.isLt; omega⟩ : Fin 128) :=
    Fin.ext (by simp)
  exact congrArg x (by rw [hc, hr])

/-- The upper half of channel `c` is its last 128 rows. -/
theorem halfSum_odd (x : Img.Idx → EReal) (n : Fin 16) (c : Fin 4) :
    halfSum x n (⟨2 * c.val + 1, by have := c.isLt; omega⟩ : Fin 8)
      = ∑ a : Fin 128, ∑ b : Fin 256, x (ix4 n c (Fin.natAdd 128 a) b) := by
  refine Eq.trans ?_ (sum_rows (fun a b => x (ix4 n c (Fin.natAdd 128 a) b)))
  unfold halfSum
  refine Finset.sum_congr rfl (fun l _ => ?_)
  have hc : (⟨(2 * c.val + 1) / 2, by have := c.isLt; omega⟩ : Fin 4) = c := Fin.ext (by simp; omega)
  have hr : (⟨((2 * c.val + 1) % 2) * 128 + l.val / 256, by have := l.isLt; omega⟩ : Fin 256)
      = Fin.natAdd 128 (⟨l.val / 256, by have := l.isLt; omega⟩ : Fin 128) :=
    Fin.ext (by simp; omega)
  exact congrArg x (by rw [hc, hr])

/-- The two halves of channel `c` sum to the channel. -/
theorem halfSum_pair (x : Img.Idx → EReal) (n : Fin 16) (c : Fin 4) :
    halfSum x n (⟨2 * c.val, by have := c.isLt; omega⟩ : Fin 8) + halfSum x n (⟨2 * c.val + 1, by have := c.isLt; omega⟩ : Fin 8)
      = chanSum x n c := by
  rw [halfSum_even, halfSum_odd]
  unfold chanSum
  exact (Fin.sum_univ_add (a := 128) (b := 128) (fun h : Fin 256 => ∑ w : Fin 256, x (ix4 n c h w))).symm

end Cert.GatedBlend

end
-- ==== Proof.HiddenEq.lean ====
/-
  The two hidden layers agree on finite inputs.

  The folded reading meets every first-layer weight twice, once per half of its channel:
  `Σ_f half_f · w(f / 2) = Σ_c (half_{2c} + half_{2c+1}) · w(c) = Σ_c chan_c · w(c)`. The middle step is
  distributivity, which on the extended reals needs the sums and the weight to be real numbers; they are,
  being finite sums of finite entries. The scaling, the bias and the clipping are then applied to equal numbers.
-/
import proofs.«102807_g2000206893809932_pallasbulk_434_14_alg».proof.Proof.GatedBlend
import proofs.«102807_g2000206893809932_pallasbulk_434_14_alg».proof.Proof.PoolFold
import Mathlib.Algebra.BigOperators.Fin
import Mathlib.Tactic.Ring

noncomputable section

open scoped BigOperators

namespace Cert.GatedBlend

open Idealize.ShloMosaic Idealize.ShloMosaic.ValueIdx

/-! ## Finite sums of real numbers inside the extended reals -/

/-- The embedding of the reals commutes with finite sums: `Σ_{i ∈ s} ↑(r i) = ↑(Σ_{i ∈ s} r i)`. -/
private theorem coe_finsum {ι : Type} (s : Finset ι) (r : ι → ℝ) :
    (∑ i ∈ s, ((r i : ℝ) : EReal)) = ((∑ i ∈ s, r i : ℝ) : EReal) := by
  classical
  refine Finset.induction_on s ?_ ?_
  · simp
  · intro a t ha ih
    rw [Finset.sum_insert ha, Finset.sum_insert ha, ih, EReal.coe_add]

/-- A finite sum of real numbers is a real number. -/
private theorem finsum_real {ι : Type} (s : Finset ι) (f : ι → EReal) (hf : ∀ i, ∃ r : ℝ, f i = (r : EReal)) :
    ∃ r : ℝ, ∑ i ∈ s, f i = (r : EReal) := by
  choose r hr using hf
  exact ⟨∑ i ∈ s, r i, (Finset.sum_congr rfl (fun i _ => hr i)).trans (coe_finsum s r)⟩

/-- A product of two real numbers is a real number. -/
private theorem mul_real {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A sum of two real numbers is a real number. -/
private theorem add_real {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The larger of a real number and zero is a real number. -/
private theorem max_zero_real {a : EReal} (ha : ∃ r : ℝ, a = (r : EReal)) : ∃ r : ℝ, max a 0 = (r : EReal) := by
  obtain ⟨x, rfl⟩ := ha
  rcases le_total ((x : ℝ) : EReal) 0 with h | h
  · exact ⟨0, by rw [max_eq_right h]; rfl⟩
  · exact ⟨x, max_eq_left h⟩

/-- A channel's sum of real entries is a real number. -/
theorem chanSum_real {x : Img.Idx → EReal} (hx : IsReal x) (n : Fin 16) (c : Fin 4) : ∃ r : ℝ, chanSum x n c = (r : EReal) := by
  unfold chanSum
  exact finsum_real _ _ (fun h => finsum_real _ _ (fun w => hx _))

/-- A half-channel's sum of real entries is a real number. -/
theorem halfSum_real {x : Img.Idx → EReal} (hx : IsReal x) (n : Fin 16) (f : Fin 8) : ∃ r : ℝ, halfSum x n f = (r : EReal) := by
  unfold halfSum
  exact finsum_real _ _ (fun l => hx _)

/-! ## Regrouping eight weighted halves into four weighted pairs -/

/-- Over the reals: `Σ_{f < 8} a_f · v_{f / 2} = Σ_{k < 4} (a_{2k} + a_{2k+1}) · v_k`; both sides written out
    term by term, the rest is distributivity. -/
private theorem real_pair_sum (a : Fin 8 → ℝ) (v : Fin 4 → ℝ) :
    ∑ f : Fin 8, a f * v (⟨f.val / 2, by have := f.isLt; omega⟩ : Fin 4)
      = ∑ k : Fin 4, (a (⟨2 * k.val, by have := k.isLt; omega⟩ : Fin 8)
          + a (⟨2 * k.val + 1, by have := k.isLt; omega⟩ : Fin 8)) * v k := by
  rw [Fin.sum_univ_eight, Fin.sum_univ_four]
  show a 0 * v 0 + a 1 * v 0 + a 2 * v 1 + a 3 * v 1 + a 4 * v 2 + a 5 * v 2 + a 6 * v 3 + a 7 * v 3
    = (a 0 + a 1) * v 0 + (a 2 + a 3) * v 1 + (a 4 + a 5) * v 2 + (a 6 + a 7) * v 3
  ring

/-- Over the extended reals, for real entries and real weights `v`: the eight half-channel sums, each against
    the weight of its channel, add up to the four channel sums against the same weights. -/
theorem half_weighted {x : Img.Idx → EReal} (hx : IsReal x) (n : Fin 16) (v : Fin 4 → EReal)
    (hv : ∀ k, ∃ r : ℝ, v k = (r : EReal)) :
    ∑ f : Fin 8, halfSum x n f * v (⟨f.val / 2, by have := f.isLt; omega⟩ : Fin 4)
      = ∑ k : Fin 4, chanSum x n k * v k := by
  choose rv hrv using hv
  choose rh hrh using halfSum_real hx n
  -- a channel's sum is the real number half_{2k} + half_{2k+1}
  have hc : ∀ k : Fin 4, chanSum x n k
      = ((rh (⟨2 * k.val, by have := k.isLt; omega⟩ : Fin 8)
          + rh (⟨2 * k.val + 1, by have := k.isLt; omega⟩ : Fin 8) : ℝ) : EReal) := by
    intro k
    rw [← halfSum_pair x n k, hrh, hrh, EReal.coe_add]
  calc ∑ f : Fin 8, halfSum x n f * v (⟨f.val / 2, by have := f.isLt; omega⟩ : Fin 4)
      = ∑ f : Fin 8, ((rh f * rv (⟨f.val / 2, by have := f.isLt; omega⟩ : Fin 4) : ℝ) : EReal) :=
        Finset.sum_congr rfl (fun f _ => by rw [hrh, hrv, EReal.coe_mul])
    _ = ((∑ f : Fin 8, rh f * rv (⟨f.val / 2, by have := f.isLt; omega⟩ : Fin 4) : ℝ) : EReal) := coe_finsum _ _
    _ = ((∑ k : Fin 4, (rh (⟨2 * k.val, by have := k.isLt; omega⟩ : Fin 8)
          + rh (⟨2 * k.val + 1, by have := k.isLt; omega⟩ : Fin 8)) * rv k : ℝ) : EReal) := by
        rw [real_pair_sum]
    _ = ∑ k : Fin 4, (((rh (⟨2 * k.val, by have := k.isLt; omega⟩ : Fin 8)
          + rh (⟨2 * k.val + 1, by have := k.isLt; omega⟩ : Fin 8)) * rv k : ℝ) : EReal) := (coe_finsum _ _).symm
    _ = ∑ k : Fin 4, chanSum x n k * v k :=
        Finset.sum_congr rfl (fun k _ => by rw [hc, hrv, EReal.coe_mul])

/-- On real inputs the hidden unit computed from half-channel sums is the one computed from channel sums. -/
theorem hiddenByHalf_eq {rgb hha : Img.Idx → EReal} {w1 : W1.Idx → EReal} (b1 : B1.Idx → EReal)
    (hr : IsReal rgb) (hh : IsReal hha) (hw : IsReal w1) (n : Fin 16) (j : Fin 128) :
    hiddenByHalf rgb hha w1 b1 n j = hiddenByChan rgb hha w1 b1 n j := by
  -- the first stream meets columns 0 … 3 of the weights
  have h1 : (∑ f : Fin 8, halfSum rgb n f * w1 (ix2 j (⟨f.val / 2, by have := f.isLt; omega⟩ : Fin 8)))
      = ∑ k : Fin 4, chanSum rgb n k * w1 (ix2 j (⟨k.val, by have := k.isLt; omega⟩ : Fin 8)) :=
    half_weighted hr n (fun k : Fin 4 => w1 (ix2 j (⟨k.val, by have := k.isLt; omega⟩ : Fin 8))) (fun k => hw _)
  -- the second stream meets columns 4 … 7; 4 + f / 2 = f / 2 + 4
  have h2 : (∑ f : Fin 8, halfSum hha n f * w1 (ix2 j (⟨4 + f.val / 2, by have := f.isLt; omega⟩ : Fin 8)))
      = ∑ k : Fin 4, chanSum hha n k * w1 (ix2 j (⟨k.val + 4, by have := k.isLt; omega⟩ : Fin 8)) := by
    refine Eq.trans (Finset.sum_congr rfl (fun f _ => ?_))
      (half_weighted hh n (fun k : Fin 4 => w1 (ix2 j (⟨k.val + 4, by have := k.isLt; omega⟩ : Fin 8))) (fun k => hw _))
    exact congrArg (fun t : Fin 8 => halfSum hha n f * w1 (ix2 j t)) (Fin.ext (Nat.add_comm 4 (f.val / 2)))
  unfold hiddenByHalf hiddenByChan
  exact congrArg₂ (fun s t => reluOf (s + t) (b1 (ix1 j))) h1 h2

/-- The scale `2⁻¹⁶` is a real number: its exponent field is not all ones. -/
theorem invArea_real : ∃ r : ℝ, invArea = (r : EReal) := by
  simp [invArea, Ideal.ofBits, Ideal.ieee, -EReal.coe_mul]

/-- On real inputs every hidden unit is a real number. -/
theorem hiddenByChan_real {rgb hha : Img.Idx → EReal} {w1 : W1.Idx → EReal} {b1 : B1.Idx → EReal}
    (hr : IsReal rgb) (hh : IsReal hha) (hw : IsReal w1) (hb : IsReal b1) (n : Fin 16) (j : Fin 128) :
    ∃ r : ℝ, hiddenByChan rgb hha w1 b1 n j = (r : EReal) := by
  unfold hiddenByChan reluOf
  refine max_zero_real (add_real (mul_real (add_real ?_ ?_) invArea_real) (hb _))
  · exact finsum_real _ _ (fun k => mul_real (chanSum_real hr n k) (hw _))
  · exact finsum_real _ _ (fun k => mul_real (chanSum_real hh n k) (hw _))

end Cert.GatedBlend

end
-- ==== Proof.GateEq.lean ====
/-
  The logistic weight is the softmax's first share, and the two blends agree.

  For real logits `l₀, l₁` with maximum `M`: `e^{l₀ − M} / (e^{l₀ − M} + e^{l₁ − M}) = 1 / (1 + e^{−(l₀ − l₁)})`,
  the second share is one minus the first, and `l₀ − l₁ = Σ_j hid_j · (u₀ⱼ − u₁ⱼ) + (v₀ − v₁)` by distributing
  over real numbers. Hence for real entries `a, b`: `b + g · (a − b) = a · p₀ + b · p₁`.
-/
import proofs.«102807_g2000206893809932_pallasbulk_434_14_alg».proof.Proof.GatedBlend

noncomputable section

open scoped BigOperators

namespace Cert.GatedBlend

open Idealize.ShloMosaic

/-- A finite sum of real numbers, read in the extended reals, is the real sum. -/
theorem coe_sum_real {ι : Type} (s : Finset ι) (r : ι → ℝ) :
    (∑ i ∈ s, ((r i : ℝ) : EReal)) = ((∑ i ∈ s, r i : ℝ) : EReal) := by
  classical
  refine Finset.induction_on s (by simp) ?_
  intro i t hi ih
  rw [Finset.sum_insert hi, Finset.sum_insert hi, ih, EReal.coe_add]

/-- The larger of two real numbers, read in the extended reals, is the larger of their readings. -/
theorem coe_max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A logit of real data is the real number `Σ_j h_j · u_{k j} + v_k`. -/
theorem logitOf_coe (hr : Fin 128 → ℝ) (ur : Fin 2 → Fin 128 → ℝ) (vr : Fin 2 → ℝ) (k : Fin 2) :
    logitOf (fun j => (hr j : EReal)) (fun k j => (ur k j : EReal)) (fun k => (vr k : EReal)) k
      = (((∑ j : Fin 128, hr j * ur k j) + vr k : ℝ) : EReal) := by
  unfold logitOf
  simp only [← EReal.coe_mul]
  rw [coe_sum_real, ← EReal.coe_add]

/-- The gate's argument for real data is the difference of the two real logits:
    `Σ_j h_j · (u_{0 j} − u_{1 j}) + (v_0 − v_1) = l_0 − l_1`, by distributing the product over the difference
    and splitting the sum. -/
theorem gateArg_coe (hr : Fin 128 → ℝ) (ur : Fin 2 → Fin 128 → ℝ) (vr : Fin 2 → ℝ) :
    (∑ j : Fin 128, (hr j : EReal) * ((ur 0 j : EReal) - (ur 1 j : EReal))) + ((vr 0 : EReal) - (vr 1 : EReal))
      = ((((∑ j : Fin 128, hr j * ur 0 j) + vr 0) - ((∑ j : Fin 128, hr j * ur 1 j) + vr 1) : ℝ) : EReal) := by
  simp only [← EReal.coe_sub, ← EReal.coe_mul]
  rw [coe_sum_real, ← EReal.coe_add, EReal.coe_eq_coe_iff]
  simp only [mul_sub, Finset.sum_sub_distrib]
  ring

/-- The first softmax share of two real logits is the logistic function of their difference:
    with `M = max l₀ l₁`, `e^{l₁ − M} = e^{l₀ − M} · e^{−(l₀ − l₁)}`, so the common factor `e^{l₀ − M} > 0` cancels. -/
theorem share0_real (l0 l1 : ℝ) :
    Real.exp (l0 - max l0 l1) * (1 / (Real.exp (l0 - max l0 l1) + Real.exp (l1 - max l0 l1)))
      = (1 + Real.exp (-(l0 - l1)))⁻¹ := by
  have h1 : Real.exp (l1 - max l0 l1) = Real.exp (l0 - max l0 l1) * Real.exp (-(l0 - l1)) := by
    rw [← Real.exp_add]; congr 1; ring
  have hE : 0 < Real.exp (l0 - max l0 l1) := Real.exp_pos _
  have ht : 0 < Real.exp (-(l0 - l1)) := Real.exp_pos _
  rw [h1]
  field_simp

/-- The second share is one minus the first: the two shares have the common denominator as their sum. -/
theorem share1_real (l0 l1 : ℝ) :
    Real.exp (l1 - max l0 l1) * (1 / (Real.exp (l0 - max l0 l1) + Real.exp (l1 - max l0 l1)))
      = 1 - (1 + Real.exp (-(l0 - l1)))⁻¹ := by
  rw [← share0_real]
  have hE : 0 < Real.exp (l0 - max l0 l1) := Real.exp_pos _
  have hF : 0 < Real.exp (l1 - max l0 l1) := Real.exp_pos _
  field_simp
  ring

/-- A share of real data is the real quotient `e^{l_k − M} / (e^{l₀ − M} + e^{l₁ − M})`: every operation meets
    real numbers only, and the denominator is positive. -/
theorem shareOf_coe (hr : Fin 128 → ℝ) (ur : Fin 2 → Fin 128 → ℝ) (vr : Fin 2 → ℝ) (k : Fin 2) :
    shareOf (fun j => (hr j : EReal)) (fun k j => (ur k j : EReal)) (fun k => (vr k : EReal)) k
      = ((Real.exp (((∑ j : Fin 128, hr j * ur k j) + vr k)
              - max ((∑ j : Fin 128, hr j * ur 0 j) + vr 0) ((∑ j : Fin 128, hr j * ur 1 j) + vr 1))
          * (1 / (Real.exp (((∑ j : Fin 128, hr j * ur 0 j) + vr 0)
                - max ((∑ j : Fin 128, hr j * ur 0 j) + vr 0) ((∑ j : Fin 128, hr j * ur 1 j) + vr 1))
              + Real.exp (((∑ j : Fin 128, hr j * ur 1 j) + vr 1)
                - max ((∑ j : Fin 128, hr j * ur 0 j) + vr 0) ((∑ j : Fin 128, hr j * ur 1 j) + vr 1)))) : ℝ) : EReal) := by
  unfold shareOf
  simp only [logitOf_coe]
  rw [coe_max_real]
  simp only [← EReal.coe_sub, Ideal.exp_coe, ← EReal.coe_add]
  rw [Ideal.div_coe (ne_of_gt (add_pos (Real.exp_pos _) (Real.exp_pos _))), ← EReal.coe_mul]

/-- For a real hidden vector, real second-layer weights and biases, and real entries `a`, `b` of the two streams,
    the blend with the logistic weight is the blend with the softmax shares. -/
theorem blend_eq {hid : Fin 128 → EReal} {u : Fin 2 → Fin 128 → EReal} {v : Fin 2 → EReal}
    (hhid : ∀ j, ∃ r : ℝ, hid j = (r : EReal)) (hu : ∀ k j, ∃ r : ℝ, u k j = (r : EReal)) (hv : ∀ k, ∃ r : ℝ, v k = (r : EReal))
    (a b : ℝ) :
    (b : EReal) + gateOf hid u v * ((a : EReal) - (b : EReal))
      = (a : EReal) * shareOf hid u v 0 + (b : EReal) * shareOf hid u v 1 := by
  choose hr hhr using hhid
  choose ur hur using hu
  choose vr hvr using hv
  obtain rfl : hid = fun j => (hr j : EReal) := funext hhr
  obtain rfl : u = fun k j => (ur k j : EReal) := funext fun k => funext (hur k)
  obtain rfl : v = fun k => (vr k : EReal) := funext hvr
  rw [shareOf_coe, shareOf_coe, share0_real, share1_real]
  unfold gateOf
  rw [gateArg_coe, Ideal.logistic_coe]
  simp only [← EReal.coe_sub, ← EReal.coe_mul, ← EReal.coe_add]
  rw [EReal.coe_eq_coe_iff]
  ring

end Cert.GatedBlend

end
-- ==== Proof.BlendEq.lean ====
/-
  On finite inputs the two blends are one function.

  The hidden vectors agree (the folded pooling only re-associates a channel's sum and distributes each weight
  over its two halves), they are real, and for a real hidden vector the logistic of the logits' difference is
  the softmax's first share, the second share its complement.
-/
import proofs.«102807_g2000206893809932_pallasbulk_434_14_alg».proof.Proof.GatedBlend
import proofs.«102807_g2000206893809932_pallasbulk_434_14_alg».proof.Proof.HiddenEq
import proofs.«102807_g2000206893809932_pallasbulk_434_14_alg».proof.Proof.GateEq

noncomputable section

open scoped BigOperators

namespace Cert.GatedBlend

open Idealize.ShloMosaic Idealize.ShloMosaic.ValueIdx

/-- Both programs' result, as functions of the six arguments, agree when every argument entry is real. -/
theorem blendByShare_eq {rgb hha : Img.Idx → EReal} {w1 : W1.Idx → EReal} {b1 : B1.Idx → EReal} {w2 : W2.Idx → EReal} {b2 : B2.Idx → EReal}
    (hr : IsReal rgb) (hh : IsReal hha) (hw1 : IsReal w1) (hb1 : IsReal b1) (hw2 : IsReal w2) (hb2 : IsReal b2) :
    blendByShare rgb hha w1 b1 w2 b2 = blendByGate rgb hha w1 b1 w2 b2 := by
  funext i
  unfold blendByShare blendByGate
  have hhid : hiddenByHalf rgb hha w1 b1 (i 0) = hiddenByChan rgb hha w1 b1 (i 0) :=
    funext fun j => hiddenByHalf_eq b1 hr hh hw1 (i 0) j
  rw [hhid]
  obtain ⟨a, ha⟩ := hr i
  obtain ⟨b, hb⟩ := hh i
  rw [ha, hb]
  exact (blend_eq (fun j => hiddenByChan_real hr hh hw1 hb1 (i 0) j) (fun k j => hw2 (ix2 k j)) (fun k => hb2 (ix1 k)) a b).symm

end Cert.GatedBlend

end
-- ==== Proof.Finite.lean ====
/-
  The precondition says every entry of every argument is a real number.

  The printed predicate is the conjunction, over the six arguments, of "every entry's absolute value is below
  +∞". An extended real whose absolute value `max x (−x)` is below `⊤` is neither `⊤` nor `⊥`, hence a real.
-/
import proofs.«102807_g2000206893809932_pallasbulk_434_14_alg».proof.Pre_finite_inputs
import proofs.«102807_g2000206893809932_pallasbulk_434_14_alg».proof.Proof.Gen.Pre_finite_inputs
import proofs.«102807_g2000206893809932_pallasbulk_434_14_alg».proof.Proof.GatedBlend
import Idealize.ShloMosaic.Lib.ReduceAll
import Idealize.ShloMosaic.Lib.ValueIdx
import Idealize.ShloMosaic.PureOps.Ideal.Laws

noncomputable section

open scoped BigOperators

namespace Cert.Pre_finite_inputs.Reals

open Cert.Pre_finite_inputs Idealize.ShloMosaic Idealize.ShloMosaic.ValueIdx Cert.GatedBlend

/-- The word 0x7F800000 is +∞. -/
theorem inf_word : Ideal.ofBits .f32 0x7F800000#32 = (⊤ : EReal) := by simp [Ideal.ofBits, Ideal.ieee]

/-- An extended real whose absolute value `max x (−x)` compares below +∞ is a real number: `⊤` and `⊥` both have
    absolute value `⊤`, which is not below `⊤`. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- The scalar shape has exactly one index. -/
instance : Subsingleton S_.Idx := ⟨fun a b => funext fun d => d.elim0⟩

/-- An array of any shape for which the conjunction, over all axes, of "this entry's absolute value is below +∞"
    is 1 holds real numbers only: the conjunction being 1 makes every entry's comparison 1. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant (F := Ideal) S_ .f32 0x7F800000#32))) init hr hu j = 1#1) :
    IsReal x := by
  intro i
  have hi := Host.reduce_andi_all _ init hr hu j e i
  exact real_of_abs_lt (x i) hi

/-- A conjunction of two bit arrays that is 1 at an index has both bits 1 there. -/
theorem andi_split {s : Shape} (x y : IVec s 1) (i : s.Idx) (e : andi x y i = 1#1) : x i = 1#1 ∧ y i = 1#1 :=
  IntOp.andi_eq_one.1 e

/-- If the predicate is all ones on six arrays, each of them holds real numbers only. -/
theorem real_of_pre [Cert.Pre_finite_inputs.Facts]
    (a0 a1 : FVec Ideal S16x4x256x256 .f32) (a2 : FVec Ideal S128x8 .f32) (a3 : FVec Ideal S128 .f32)
    (a4 : FVec Ideal S2x128 .f32) (a5 : FVec Ideal S2 .f32)
    (h : Cert.Pre_finite_inputs.fn (F := Ideal) a0 a1 a2 a3 a4 a5 = fun _ => 1#1) :
    IsReal a0 ∧ IsReal a1 ∧ IsReal a2 ∧ IsReal a3 ∧ IsReal a4 ∧ IsReal a5 := by
  -- the predicate at its one index is ((((b₀ ∧ b₁) ∧ b₂) ∧ b₃) ∧ b₄) ∧ b₅, with bₖ the conjunction over argument k
  have h0 := congrFun h ValueIdx.ix0
  dsimp only [fn, fn_part1] at h0
  obtain ⟨h1, e5⟩ := andi_split _ _ _ h0
  obtain ⟨h2, e4⟩ := andi_split _ _ _ h1
  obtain ⟨h3, e3⟩ := andi_split _ _ _ h2
  obtain ⟨h4, e2⟩ := andi_split _ _ _ h3
  obtain ⟨e0, e1⟩ := andi_split _ _ _ h4
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5⟩

end Cert.Pre_finite_inputs.Reals

end
-- ==== Proof.lean ====
/-
  The certificate of the importance-weighted fusion of two image streams.

  Both programs pool each sample's two four-channel 256 × 256 streams, pass the eight pooled numbers through
  a 128-unit layer (scaled by the reciprocal of the image's area, biased, clipped at zero) and two output
  logits, and blend the streams with the resulting weight. One pools by rows, four samples per grid point,
  weighs by the logistic function of the logits' difference and stores `hha + g · (rgb − hha)`; the other folds
  every channel into two contiguous halves, one sample per grid point, weighs by the two-way softmax and stores
  `rgb · p₀ + hha · p₁`, then unfolds the result. On finite inputs these are the same function of the six
  arguments: a channel's sum is its halves' sums added, each first-layer weight distributes over them, the
  logistic of the difference is the softmax's first share and the second share is its complement.

  The three programs' frames are the generated ones; nothing was rewritten by the idealization, so
  `preserves` has nothing to state; the equivalence puts the two value runs side by side.
-/
import proofs.«102807_g2000206893809932_pallasbulk_434_14_alg».proof.Defs
import proofs.«102807_g2000206893809932_pallasbulk_434_14_alg».proof.Proof.Gen.Kernel.Frame
import proofs.«102807_g2000206893809932_pallasbulk_434_14_alg».proof.Proof.Gen.KernelIdeal.Frame
import proofs.«102807_g2000206893809932_pallasbulk_434_14_alg».proof.Proof.Gen.ReferenceIdeal.Frame
import proofs.«102807_g2000206893809932_pallasbulk_434_14_alg».proof.Proof.Gen.Pre_finite_inputs
import proofs.«102807_g2000206893809932_pallasbulk_434_14_alg».proof.Proof.KernelValue
import proofs.«102807_g2000206893809932_pallasbulk_434_14_alg».proof.Proof.RefValue
import proofs.«102807_g2000206893809932_pallasbulk_434_14_alg».proof.Proof.BlendEq
import proofs.«102807_g2000206893809932_pallasbulk_434_14_alg».proof.Proof.Finite
import Idealize.ShloMosaic.Adequacy
import Idealize.ShloMosaic.Init

noncomputable section

namespace Cert.Proof

open Idealize.ShloMosaic Idealize.ShloMosaic.TcCoe Idealize.SL.Sem Cert.GatedBlend

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The row-pooling program ends at the gated blend of its arguments, the folded one at the blend by shares of
    its own; the arguments agree and are finite, so the two results are equal entry by entry. -/
theorem algebraic : Cert.algebraic_KernelIdeal_ReferenceIdeal := by
  intro m ρ m' ρ' hpre hagree
  refine ⟨fun c => blendByGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.BlendValue.run m ρ, ?_⟩
  refine (θ_run Cert.ReferenceIdeal.defs _ _).mono (fun r h c => ⟨(h c).1.trans ?_, (h c).2⟩)
    (Cert.ReferenceIdeal.BlendValue.run m' ρ')
  rw [(hagree c).1, (hagree c).2.1, (hagree c).2.2.1, (hagree c).2.2.2.1, (hagree c).2.2.2.2.1, (hagree c).2.2.2.2.2]
  obtain ⟨h0, h1, h2, h3, h4, h5⟩ := Cert.Pre_finite_inputs.Reals.real_of_pre _ _ _ _ _ _ (hpre c)
  exact blendByShare_eq h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
